-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1250000 : Shape := ⟨2, ![2, 1250000]⟩
abbrev S128x64 : Shape := ⟨2, ![128, 64]⟩
abbrev S128x1 : Shape := ⟨2, ![128, 1]⟩
abbrev S1 : Shape := ⟨1, ![1]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S64 : S_.BroadcastsInDim S64 (![] : Fin 0 → Fin S64.rank)
  reducesTo_S64_S_d0 : S64.ReducesTo [0] S_
  bcast_S_S2x1250000 : S_.BroadcastsInDim S2x1250000 (![] : Fin 0 → Fin S2x1250000.rank)
  reducesTo_S2x1250000_S_d0_1 : S2x1250000.ReducesTo [0, 1] S_

variable [Facts]

def fn_part2 {F : FTy → Type} [FloatOps F] (main_arg1 : IVec S2x1250000 32) (main_v32 : IVec S_ 1) (main_c_12 : IVec S_ 32) : IVec S_ 1 :=
  let main_v33 : IVec S2x1250000 32 := broadcastInDim S2x1250000 ![] bcast_S_S2x1250000 main_c_12
  let main_v34 : IVec S2x1250000 1 := cmpi .slt main_arg1 main_v33
  let main_c_13 : IVec S_ 1 := constantI S_ 1 1#1
  let main_v35 : IVec S_ 1 := (fun x v => Host.reduce IntOp.andi x v reducesTo_S2x1250000_S_d0_1 h_S_) main_v34 main_c_13
  let main_v36 : IVec S_ 1 := andi main_v32 main_v35
  main_v36

def fn_part1 {F : FTy → Type} [FloatOps F] (main_arg1 : IVec S2x1250000 32) (main_arg5 : FVec F S128x64 .f32) (main_arg6 : FVec F S64 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S2x1250000 32 := broadcastInDim S2x1250000 ![] bcast_S_S2x1250000 main_c_10
  let main_v30 : IVec S2x1250000 1 := cmpi .sge main_arg1 main_v29
  let main_c_11 : IVec S_ 1 := constantI S_ 1 1#1
  let main_v31 : IVec S_ 1 := (fun x v => Host.reduce IntOp.andi x v reducesTo_S2x1250000_S_d0_1 h_S_) main_v30 main_c_11
  let main_v32 : IVec S_ 1 := andi main_v28 main_v31
  let main_c_12 : IVec S_ 32 := constantI S_ 32 100000#32
  fn_part2 (F := F) main_arg1 main_v32 main_c_12

def fn {F : FTy → Type} [FloatOps F] (main_arg0 : FVec F S100000x128 .f32) (main_arg1 : IVec S2x1250000 32) (main_arg2 : FVec F S128x64 .f32) (main_arg3 : FVec F S128x1 .f32) (main_arg4 : FVec F S1 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg1 main_arg5 main_arg6 main_v13 main_v16
-- ==== Kernel.lean ====
abbrev S100000x128 : Shape := ⟨2, ![100000, 128]⟩
abbrev S2x1250000 : Shape := ⟨2, ![2, 1250000]⟩
abbrev S128x64 : Shape := ⟨2, ![128, 64]⟩
abbrev S128x1 : Shape := ⟨2, ![128, 1]⟩
abbrev S1 : Shape := ⟨1, ![1]⟩
abbrev S64 : Shape := ⟨1, ![64]⟩
abbrev S1x1250000 : Shape := ⟨2, ![1, 1250000]⟩
abbrev S1250000 : Shape := ⟨1, ![1250000]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S1250000x1 : Shape := ⟨2, ![1250000, 1]⟩
abbrev S1x1 : Shape := ⟨2, ![1, 1]⟩
abbrev S1250000x64 : Shape := ⟨2, ![1250000, 64]⟩
abbrev S64x1 : Shape := ⟨2, ![64, 1]⟩
abbrev S1x64 : Shape := ⟨2, ![1, 64]⟩
abbrev S5000x1 : Shape := ⟨2, ![5000, 1]⟩
abbrev S5000 : Shape := ⟨1, ![5000]⟩
abbrev S100000x1 : Shape := ⟨2, ![100000, 1]⟩

abbrev nBuf : Space → Nat
  | .hbm => 105
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1250000, .i32⟩
  | .hbm, ⟨2, _⟩ => ⟨S128x64, .f32⟩
  | .hbm, ⟨3, _⟩ => ⟨S128x1, .f32⟩
  | .hbm, ⟨4, _⟩ => ⟨S1, .f32⟩
  | .hbm, ⟨5, _⟩ => ⟨S128x64, .f32⟩
  | .hbm, ⟨6, _⟩ => ⟨S64, .f32⟩
  | .hbm, ⟨7, _⟩ => ⟨S1x1250000, .i32⟩
  | .hbm, ⟨8, _⟩ => ⟨S1250000, .i32⟩
  | .hbm, ⟨9, _⟩ => ⟨S1x1250000, .i32⟩
  | .hbm, ⟨10, _⟩ => ⟨S1250000, .i32⟩
  | .hbm, ⟨11, _⟩ => ⟨S100000x64, .f32⟩
  | .hbm, ⟨12, _⟩ => ⟨S100000x64, .f32⟩
  | .hbm, ⟨13, _⟩ => ⟨S_, .i32⟩
  | .hbm, ⟨14, _⟩ => ⟨S1250000, .i32⟩
  | .hbm, ⟨15, _⟩ => ⟨S1250000, .i1⟩
  | .hbm, ⟨16, _⟩ => ⟨S_, .i32⟩
  | .hbm, ⟨17, _⟩ => ⟨S1250000, .i32⟩
  | .hbm, ⟨18, _⟩ => ⟨S1250000, .i32⟩
  | .hbm, ⟨19, _⟩ => ⟨S1250000, .i32⟩
  | .hbm, ⟨20, _⟩ => ⟨S1250000x1, .i32⟩
  | .hbm, ⟨21, _⟩ => ⟨S1, .i32⟩
  | .hbm, ⟨22, _⟩ => ⟨S_, .i32⟩
  | .hbm, ⟨23, _⟩ => ⟨S1250000x1, .i32⟩
  | .hbm, ⟨24, _⟩ => ⟨S1250000x1, .i1⟩
  | .hbm, ⟨25, _⟩ => ⟨S1x1, .i32⟩
  | .hbm, ⟨26, _⟩ => ⟨S1250000x1, .i32⟩
  | .hbm, ⟨27, _⟩ => ⟨S1250000x1, .i1⟩
  | .hbm, ⟨28, _⟩ => ⟨S1250000x1, .i1⟩
  | .hbm, ⟨29, _⟩ => ⟨S_, .i1⟩
  | .hbm, ⟨30, _⟩ => ⟨S1250000, .i1⟩
  | .hbm, ⟨31, _⟩ => ⟨S1250000x64, .f32⟩
  | .hbm, ⟨32, _⟩ => ⟨S1250000x64, .i1⟩
  | .hbm, ⟨33, _⟩ => ⟨S_, .f32⟩
  | .hbm, ⟨34, _⟩ => ⟨S1250000x64, .f32⟩
  | .hbm, ⟨35, _⟩ => ⟨S1250000x64, .f32⟩
  | .hbm, ⟨36, _⟩ => ⟨S_, .i32⟩
  | .hbm, ⟨37, _⟩ => ⟨S1250000, .i32⟩
  | .hbm, ⟨38, _⟩ => ⟨S1250000, .i1⟩
  | .hbm, ⟨39, _⟩ => ⟨S_, .i32⟩
  | .hbm, ⟨40, _⟩ => ⟨S1250000, .i32⟩
  | .hbm, ⟨41, _⟩ => ⟨S1250000, .i32⟩
  | .hbm, ⟨42, _⟩ => ⟨S1250000, .i32⟩
  | .hbm, ⟨43, _⟩ => ⟨S1250000x1, .i32⟩
  | .hbm, ⟨44, _⟩ => ⟨S1, .i32⟩
  | .hbm, ⟨45, _⟩ => ⟨S_, .i32⟩
  | .hbm, ⟨46, _⟩ => ⟨S1250000x1, .i32⟩
  | .hbm, ⟨47, _⟩ => ⟨S1250000x1, .i1⟩
  | .hbm, ⟨48, _⟩ => ⟨S1x1, .i32⟩
  | .hbm, ⟨49, _⟩ => ⟨S1250000x1, .i32⟩
  | .hbm, ⟨50, _⟩ => ⟨S1250000x1, .i1⟩
  | .hbm, ⟨51, _⟩ => ⟨S1250000x1, .i1⟩
  | .hbm, ⟨52, _⟩ => ⟨S_, .i1⟩
  | .hbm, ⟨53, _⟩ => ⟨S1250000, .i1⟩
  | .hbm, ⟨54, _⟩ => ⟨S1250000x64, .f32⟩
  | .hbm, ⟨55, _⟩ => ⟨S1250000x64, .i1⟩
  | .hbm, ⟨56, _⟩ => ⟨S_, .f32⟩
  | .hbm, ⟨57, _⟩ => ⟨S1250000x64, .f32⟩
  | .hbm, ⟨58, _⟩ => ⟨S1250000x64, .f32⟩
  | .hbm, ⟨59, _⟩ => ⟨S64x1, .f32⟩
  | .hbm, ⟨60, _⟩ => ⟨S64, .f32⟩
  | .hbm, ⟨61, _⟩ => ⟨S1x64, .f32⟩
  | .hbm, ⟨62, _⟩ => ⟨S64x1, .f32⟩
  | .hbm, ⟨63, _⟩ => ⟨S64, .f32⟩
  | .hbm, ⟨64, _⟩ => ⟨S1x64, .f32⟩
  | .hbm, ⟨65, _⟩ => ⟨S1x1, .f32⟩
  | .hbm, ⟨66, _⟩ => ⟨S1250000x1, .f32⟩
  | .hbm, ⟨67, _⟩ => ⟨S_, .f32⟩
  | .hbm, ⟨68, _⟩ => ⟨S100000x1, .f32⟩
  | .hbm, ⟨69, _⟩ => ⟨S1250000x1, .i32⟩
  | .hbm, ⟨70, _⟩ => ⟨S100000x1, .f32⟩
  | .hbm, ⟨71, _⟩ => ⟨S_, .i32⟩
  | .hbm, ⟨72, _⟩ => ⟨S1250000, .i32⟩
  | .hbm, ⟨73, _⟩ => ⟨S1250000, .i1⟩
  | .hbm, ⟨74, _⟩ => ⟨S_, .i32⟩
  | .hbm, ⟨75, _⟩ => ⟨S1250000, .i32⟩
  | .hbm, ⟨76, _⟩ => ⟨S1250000, .i32⟩
  | .hbm, ⟨77, _⟩ => ⟨S1250000, .i32⟩
  | .hbm, ⟨78, _⟩ => ⟨S1250000x1, .i32⟩
  | .hbm, ⟨79, _⟩ => ⟨S1, .i32⟩
  | .hbm, ⟨80, _⟩ => ⟨S_, .i32⟩
  | .hbm, ⟨81, _⟩ => ⟨S1250000x1, .i32⟩
  | .hbm, ⟨82, _⟩ => ⟨S1250000x1, .i1⟩
  | .hbm, ⟨83, _⟩ => ⟨S1x1, .i32⟩
  | .hbm, ⟨84, _⟩ => ⟨S1250000x1, .i32⟩
  | .hbm, ⟨85, _⟩ => ⟨S1250000x1, .i1⟩
  | .hbm, ⟨86, _⟩ => ⟨S1250000x1, .i1⟩
  | .hbm, ⟨87, _⟩ => ⟨S_, .i1⟩
  | .hbm, ⟨88, _⟩ => ⟨S1250000, .i1⟩
  | .hbm, ⟨89, _⟩ => ⟨S1250000x1, .f32⟩
  | .hbm, ⟨90, _⟩ => ⟨S1250000x1, .i1⟩
  | .hbm, ⟨91, _⟩ => ⟨S_, .f32⟩
  | .hbm, ⟨92, _⟩ => ⟨S1250000x1, .f32⟩
  | .hbm, ⟨93, _⟩ => ⟨S1250000x1, .f32⟩
  | .hbm, ⟨94, _⟩ => ⟨S_, .f32⟩
  | .hbm, ⟨95, _⟩ => ⟨S1250000x1, .f32⟩
  | .hbm, ⟨96, _⟩ => ⟨S1250000x1, .f32⟩
  | .hbm, ⟨97, _⟩ => ⟨S1250000x1, .f32⟩
  | .hbm, ⟨98, _⟩ => ⟨S1250000x64, .f32⟩
  | .hbm, ⟨99, _⟩ => ⟨S_, .f32⟩
  | .hbm, ⟨100, _⟩ => ⟨S100000x64, .f32⟩
  | .hbm, ⟨101, _⟩ => ⟨S1250000x1, .i32⟩
  | .hbm, ⟨102, _⟩ => ⟨S100000x64, .f32⟩
  | .hbm, ⟨103, _⟩ => ⟨S1x64, .f32⟩
  | .hbm, ⟨104, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S128x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S1x64, .f32⟩
  | .local _ .vmem, ⟨14, _⟩ => ⟨S1x1, .f32⟩
  | .local _ .vmem, ⟨15, _⟩ => ⟨S5000x1, .f32⟩
  | .local _ .vmem, ⟨16, _⟩ => ⟨S5000x1, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v5 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_cst : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v18 : Ref sig .tc := ⟨.hbm, 93, rfl⟩
abbrev main_cst_0 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_cst_1 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x1 : S_.BroadcastsInDim S1250000x1 (![] : Fin 0 → Fin S1250000x1.rank)
  bcast_S1_S1x1_1 : S1.BroadcastsInDim S1x1 (![1] : Fin 1 → Fin S1x1.rank)
  bcast_S1x1_S1250000x1_0_1 : S1x1.BroadcastsInDim S1250000x1 (![0, 1] : Fin 2 → Fin S1250000x1.rank)
  reducesTo_S1250000x1_S1250000_d1 : S1250000x1.ReducesTo [1] S1250000
  h_S_ : 0 < S_.numel
  bcast_S1250000_S1250000x64_0 : S1250000.BroadcastsInDim S1250000x64 (![0] : Fin 1 → Fin S1250000x64.rank)
  bcast_S_S1250000x64 : S_.BroadcastsInDim S1250000x64 (![] : Fin 0 → Fin S1250000x64.rank)
  slices_S128x1_S64x1_0_0 : S128x1.Slices ![0, 0] S64x1
  shapeCasts_S64x1_S64 : S64x1.ShapeCasts S64
  shapeCasts_S64_S1x64 : S64.ShapeCasts S1x64
  slices_S128x1_S64x1_64_0 : S128x1.Slices ![64, 0] S64x1
  shapeCasts_S1_S1x1 : S1.ShapeCasts S1x1
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x64_S5000x64 : S1x64.Broadcasts S5000x64
  reduces_S5000x64_S5000 : S5000x64.Reduces [1] S5000
  shapeCasts_S5000_S5000x1 : S5000.ShapeCasts S5000x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  dot_S5000x128_S128x64_S5000x64_1_0_0_1_n_n_wf : DotDims.WF S5000x128 S128x64 S5000x64 [1] [0] [0] [1] [] []
  gather_S100000x64_S1250000x1_S1250000x64_1_0_n_n_0_1_164_wf : GatherDims.WF S100000x64 S1250000x1 S1250000x64 [1] [0] [] [0] [] 1 ![1, 64]
  scatter_S100000x1_S1250000x1_S1250000x1_1_0_0_1_wf : ScatterDims.WF S100000x1 S1250000x1 S1250000x1 [1] [0] [0] 1
  gather_S100000x1_S1250000x1_S1250000x1_1_0_n_n_0_1_11_wf : GatherDims.WF S100000x1 S1250000x1 S1250000x1 [1] [0] [] [0] [] 1 ![1, 1]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S1250000x64.size a
  hwx1_0 : ∀ i : grid1.Coords, EltTy.bits .f32 = 32 ∨ (Rect.block (s := S1250000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S1250000x64.size a
  hwx1_1 : ∀ i : grid1.Coords, EltTy.bits .f32 = 32 ∨ (Rect.block (s := S1250000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S1250000x1.size a
  hwx1_5 : ∀ i : grid1.Coords, EltTy.bits .f32 = 32 ∨ (Rect.block (s := S1250000x1) S5000x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S1250000x64.size a
  hwx2_0 : ∀ i : grid2.Coords, EltTy.bits .f32 = 32 ∨ (Rect.block (s := S1250000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S1250000x1.size a
  hwx2_1 : ∀ i : grid2.Coords, EltTy.bits .f32 = 32 ∨ (Rect.block (s := S1250000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S1250000x64.size a
  hwx2_2 : ∀ i : grid2.Coords, EltTy.bits .f32 = 32 ∨ (Rect.block (s := S1250000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x1_S1250000x1_S1250000x1_1_0_0_1 : ScatterDims S100000x1 S1250000x1 S1250000x1 where
  updateWindowDims := [1]
  insertedWindowDims := [0]
  scatterDimsToOperandDims := [0]
  indexVectorDim := 1
  wf := scatter_S100000x1_S1250000x1_S1250000x1_1_0_0_1_wf
def gather_S100000x1_S1250000x1_S1250000x1_1_0_n_n_0_1_11 : GatherDims S100000x1 S1250000x1 S1250000x1 where
  offsetDims := [1]
  collapsedSliceDims := [0]
  operandBatchingDims := []
  startIndicesBatchingDims := []
  startIndexMap := [0]
  indexVectorDim := 1
  sliceSizes := ![1, 1]
  wf := gather_S100000x1_S1250000x1_S1250000x1_1_0_n_n_0_1_11_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v6) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v25) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4_1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1250000 : Shape := ⟨2, ![2, 1250000]⟩
abbrev S128x64 : Shape := ⟨2, ![128, 64]⟩
abbrev S128x1 : Shape := ⟨2, ![128, 1]⟩
abbrev S1 : Shape := ⟨1, ![1]⟩
abbrev S64 : Shape := ⟨1, ![64]⟩
abbrev S1x1250000 : Shape := ⟨2, ![1, 1250000]⟩
abbrev S1250000 : Shape := ⟨1, ![1250000]⟩
abbrev S100000x64 : Shape := ⟨2, ![100000, 64]⟩
abbrev S_ : Shape := ⟨0, ![]⟩
abbrev S1250000x1 : Shape := ⟨2, ![1250000, 1]⟩
abbrev S1250000x64 : Shape := ⟨2, ![1250000, 64]⟩
abbrev S1250000x128 : Shape := ⟨2, ![1250000, 128]⟩
abbrev S1x1 : Shape := ⟨2, ![1, 1]⟩
abbrev S100000x1 : Shape := ⟨2, ![100000, 1]⟩
abbrev S1x64 : Shape := ⟨2, ![1, 64]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1250000, .i32⟩
  | .hbm, ⟨2, _⟩ => ⟨S128x64, .f32⟩
  | .hbm, ⟨3, _⟩ => ⟨S128x1, .f32⟩
  | .hbm, ⟨4, _⟩ => ⟨S1, .f32⟩
  | .hbm, ⟨5, _⟩ => ⟨S128x64, .f32⟩
  | .hbm, ⟨6, _⟩ => ⟨S64, .f32⟩
  | .hbm, ⟨7, _⟩ => ⟨S1x1250000, .i32⟩
  | .hbm, ⟨8, _⟩ => ⟨S1250000, .i32⟩
  | .hbm, ⟨9, _⟩ => ⟨S1x1250000, .i32⟩
  | .hbm, ⟨10, _⟩ => ⟨S1250000, .i32⟩
  | .hbm, ⟨11, _⟩ => ⟨S100000x64, .f32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .i32⟩
  | .hbm, ⟨22, _⟩ => ⟨S1250000, .i32⟩
  | .hbm, ⟨23, _⟩ => ⟨S1250000, .i1⟩
  | .hbm, ⟨24, _⟩ => ⟨S_, .i32⟩
  | .hbm, ⟨25, _⟩ => ⟨S1250000, .i32⟩
  | .hbm, ⟨26, _⟩ => ⟨S1250000, .i32⟩
  | .hbm, ⟨27, _⟩ => ⟨S1250000, .i32⟩
  | .hbm, ⟨28, _⟩ => ⟨S1250000x1, .i32⟩
  | .hbm, ⟨29, _⟩ => ⟨S1250000x64, .f32⟩
  | .hbm, ⟨30, _⟩ => ⟨S1250000x128, .f32⟩
  | .hbm, ⟨31, _⟩ => ⟨S1250000x1, .f32⟩
  | .hbm, ⟨32, _⟩ => ⟨S1x1, .f32⟩
  | .hbm, ⟨33, _⟩ => ⟨S1250000x1, .f32⟩
  | .hbm, ⟨34, _⟩ => ⟨S1250000x1, .f32⟩
  | .hbm, ⟨35, _⟩ => ⟨S_, .f32⟩
  | .hbm, ⟨36, _⟩ => ⟨S_, .f32⟩
  | .hbm, ⟨37, _⟩ => ⟨S1250000x1, .f32⟩
  | .hbm, ⟨38, _⟩ => ⟨S1250000x1, .i1⟩
  | .hbm, ⟨39, _⟩ => ⟨S_, .f32⟩
  | .hbm, ⟨40, _⟩ => ⟨S1250000x1, .f32⟩
  | .hbm, ⟨41, _⟩ => ⟨S1250000x1, .f32⟩
  | .hbm, ⟨42, _⟩ => ⟨S1250000x1, .f32⟩
  | .hbm, ⟨43, _⟩ => ⟨S1250000x1, .f32⟩
  | .hbm, ⟨44, _⟩ => ⟨S_, .f32⟩
  | .hbm, ⟨45, _⟩ => ⟨S100000x1, .f32⟩
  | .hbm, ⟨46, _⟩ => ⟨S1250000x1, .i32⟩
  | .hbm, ⟨47, _⟩ => ⟨S100000x1, .f32⟩
  | .hbm, ⟨48, _⟩ => ⟨S_, .i32⟩
  | .hbm, ⟨49, _⟩ => ⟨S1250000, .i32⟩
  | .hbm, ⟨50, _⟩ => ⟨S1250000, .i1⟩
  | .hbm, ⟨51, _⟩ => ⟨S_, .i32⟩
  | .hbm, ⟨52, _⟩ => ⟨S1250000, .i32⟩
  | .hbm, ⟨53, _⟩ => ⟨S1250000, .i32⟩
  | .hbm, ⟨54, _⟩ => ⟨S1250000, .i32⟩
  | .hbm, ⟨55, _⟩ => ⟨S1250000x1, .i32⟩
  | .hbm, ⟨56, _⟩ => ⟨S1250000x1, .f32⟩
  | .hbm, ⟨57, _⟩ => ⟨S_, .f32⟩
  | .hbm, ⟨58, _⟩ => ⟨S1250000x1, .f32⟩
  | .hbm, ⟨59, _⟩ => ⟨S1250000x1, .f32⟩
  | .hbm, ⟨60, _⟩ => ⟨S1250000x1, .f32⟩
  | .hbm, ⟨61, _⟩ => ⟨S1250000x64, .f32⟩
  | .hbm, ⟨62, _⟩ => ⟨S1250000x64, .f32⟩
  | .hbm, ⟨63, _⟩ => ⟨S_, .f32⟩
  | .hbm, ⟨64, _⟩ => ⟨S100000x64, .f32⟩
  | .hbm, ⟨65, _⟩ => ⟨S1250000x1, .i32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  concatenates_S1250000x64_S1250000x64_S1250000x128_d1 : Shape.Concatenates [S1250000x64, S1250000x64] S1250000x128 1
  bcast_S1_S1x1_1 : S1.BroadcastsInDim S1x1 (![1] : Fin 1 → Fin S1x1.rank)
  bcast_S1x1_S1250000x1_0_1 : S1x1.BroadcastsInDim S1250000x1 (![0, 1] : Fin 2 → Fin S1250000x1.rank)
  bcast_S_S1250000x1 : S_.BroadcastsInDim S1250000x1 (![] : Fin 0 → Fin S1250000x1.rank)
  bcast_S_S100000x1 : S_.BroadcastsInDim S100000x1 (![] : Fin 0 → Fin S100000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S1250000x1_S1250000x64_1_0_n_n_0_1_164_wf : GatherDims.WF S100000x64 S1250000x1 S1250000x64 [1] [0] [] [0] [] 1 ![1, 64]
  dot_S1250000x128_S128x1_S1250000x1_1_0_0_1_n_n_wf : DotDims.WF S1250000x128 S128x1 S1250000x1 [1] [0] [0] [1] [] []
  scatter_S100000x1_S1250000x1_S1250000x1_1_0_0_1_wf : ScatterDims.WF S100000x1 S1250000x1 S1250000x1 [1] [0] [0] 1
  gather_S100000x1_S1250000x1_S1250000x1_1_0_n_n_0_1_11_wf : GatherDims.WF S100000x1 S1250000x1 S1250000x1 [1] [0] [] [0] [] 1 ![1, 1]
  scatter_S100000x64_S1250000x1_S1250000x64_1_0_0_1_wf : ScatterDims.WF S100000x64 S1250000x1 S1250000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S1250000x128_S128x1_S1250000x1_1_0_0_1_n_n : DotDims S1250000x128 S128x1 S1250000x1 where
  lhsContracting := [1]
  rhsContracting := [0]
  lhsNonContracting := [0]
  rhsNonContracting := [1]
  lhsBatch := []
  rhsBatch := []
  wf := dot_S1250000x128_S128x1_S1250000x1_1_0_0_1_n_n_wf
def scatter_S100000x1_S1250000x1_S1250000x1_1_0_0_1 : ScatterDims S100000x1 S1250000x1 S1250000x1 where
  updateWindowDims := [1]
  insertedWindowDims := [0]
  scatterDimsToOperandDims := [0]
  indexVectorDim := 1
  wf := scatter_S100000x1_S1250000x1_S1250000x1_1_0_0_1_wf
def gather_S100000x1_S1250000x1_S1250000x1_1_0_n_n_0_1_11 : GatherDims S100000x1 S1250000x1 S1250000x1 where
  offsetDims := [1]
  collapsedSliceDims := [0]
  operandBatchingDims := []
  startIndicesBatchingDims := []
  startIndexMap := [0]
  indexVectorDim := 1
  sliceSizes := ![1, 1]
  wf := gather_S100000x1_S1250000x1_S1250000x1_1_0_n_n_0_1_11_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.SpecProj.lean ====
/-
  The projection stage as one function of whole arrays: row i of the product of a 100000×128 array with a
  128×64 array, entry (i, j) the sum over k of x[i, k] · w[k, j] on the extended reals.
-/
import Idealize.ShloMosaic.PureOps.Ideal
import Idealize.ShloMosaic.Lib.ValueIdx

noncomputable section

namespace Cert.Spec

open Idealize.ShloMosaic Idealize.ShloMosaic.ValueIdx

/-- Entry (p, q) of x · w: the sum over the 128 contracted positions. -/
def projAt (x : FVec Ideal ⟨2, ![100000, 128]⟩ .f32) (w : FVec Ideal ⟨2, ![128, 64]⟩ .f32) (p : Fin 100000) (q : Fin 64) : EReal :=
  ∑ k : Fin 128, x (ix2 p k) * w (ix2 k q)

/-- The product x · w as a whole array. -/
def proj (x : FVec Ideal ⟨2, ![100000, 128]⟩ .f32) (w : FVec Ideal ⟨2, ![128, 64]⟩ .f32) : FVec Ideal ⟨2, ![100000, 64]⟩ .f32 :=
  fun i => projAt x w (i 0) (i 1)

end Cert.Spec

end
-- ==== Proof.SpecScore.lean ====
/-
  The attention numerator as one function of whole arrays: for edge e, the score is
  Σ_k hi[e, k] · wi[0, k] + Σ_k hj[e, k] · wj[0, k] + b[0, 0]; the leaky rectifier with slope f32(0.2) is applied, then exp.
-/
import Idealize.ShloMosaic.PureOps.Ideal
import Idealize.ShloMosaic.Lib.ValueIdx

noncomputable section

namespace Cert.Spec

open Idealize.ShloMosaic Idealize.ShloMosaic.ValueIdx

/-- The leaky rectifier (slope the f32 word 0x3E4CCCCD) followed by the exponential, on one extended real. -/
def leakyExp (s : EReal) : EReal :=
  Ideal.exp (Scalar.select (FloatOps.cmpf (F := Ideal) (φ := .f32) .oge s (Ideal.ofBits .f32 0x00000000#32)) s
    (Ideal.ofBits .f32 0x3E4CCCCD#32 * s))

/-- The score of edge e before the rectifier. -/
def scoreAt (hi hj : FVec Ideal ⟨2, ![1250000, 64]⟩ .f32) (wi wj : FVec Ideal ⟨2, ![1, 64]⟩ .f32) (b : FVec Ideal ⟨2, ![1, 1]⟩ .f32)
    (e : Fin 1250000) : EReal :=
  (∑ k : Fin 64, hi (ix2 e k) * wi (ix2 0 k)) + (∑ k : Fin 64, hj (ix2 e k) * wj (ix2 0 k)) + b (ix2 0 0)

/-- The numerator column: exp of the leaky-rectified score, per edge. -/
def score (hi hj : FVec Ideal ⟨2, ![1250000, 64]⟩ .f32) (wi wj : FVec Ideal ⟨2, ![1, 64]⟩ .f32) (b : FVec Ideal ⟨2, ![1, 1]⟩ .f32) :
    FVec Ideal ⟨2, ![1250000, 1]⟩ .f32 :=
  fun i => leakyExp (scoreAt hi hj wi wj b (i 0))

end Cert.Spec

end
-- ==== Proof.SpecPointwise.lean ====
/-
  The two pointwise stages as functions of whole arrays: the alpha-weighted source features
  hj[e, j] · alpha[e, 0], and the final combination agg[i, j] + res[i, j] + bias[0, j].
-/
import Idealize.ShloMosaic.PureOps.Ideal
import Idealize.ShloMosaic.Lib.ValueIdx

noncomputable section

namespace Cert.Spec

open Idealize.ShloMosaic Idealize.ShloMosaic.ValueIdx

/-- Row e of the source features scaled by that edge's coefficient. -/
def weighted (hj : FVec Ideal ⟨2, ![1250000, 64]⟩ .f32) (alpha : FVec Ideal ⟨2, ![1250000, 1]⟩ .f32) : FVec Ideal ⟨2, ![1250000, 64]⟩ .f32 :=
  fun i => hj i * alpha (ix2 (i 0) 0)

/-- The aggregate plus the residual projection plus the bias row. -/
def combine (agg res : FVec Ideal ⟨2, ![100000, 64]⟩ .f32) (bias : FVec Ideal ⟨2, ![1, 64]⟩ .f32) : FVec Ideal ⟨2, ![100000, 64]⟩ .f32 :=
  fun i => agg i + res i + bias (ix2 0 (i 1))

end Cert.Spec

end
-- ==== Proof.KTerm.lean ====
/-
  The kernel program's host operations between its four regions, as pure functions of the values they read:
  the two index rows of the edge table, an index wrapped and its in-range mask, the guarded row gather
  (a gathered row where the wrapped index is inside the table, the NaN word elsewhere), the weight
  vector's two halves laid out as rows, the per-destination sums, the attention coefficient.
  `kernelOut` composes them with the four regions' whole-array functions.
-/
import proofs.«419194_j39496519254635_1_alg».proof.KernelIdeal
import proofs.«419194_j39496519254635_1_alg».proof.Proof.SpecProj
import proofs.«419194_j39496519254635_1_alg».proof.Proof.SpecScore
import proofs.«419194_j39496519254635_1_alg».proof.Proof.SpecPointwise

noncomputable section

namespace Cert.KernelIdeal.KT

open Idealize.ShloMosaic Cert.KernelIdeal

variable {F : FTy → Type} [FloatOps F] [Facts]
open Facts₀ Facts

/-- Row 0 of the edge table: the source node of each edge. -/
def srcOf (ei : IVec S2x1250000 32) : IVec S1250000 32 :=
  shapeCast S1250000 (extractStridedSlice S1x1250000 ![0, 0] ei slices_S2x1250000_S1x1250000_0_0) shapeCasts_S1x1250000_S1250000

/-- Row 1 of the edge table: the destination node of each edge. -/
def dstOf (ei : IVec S2x1250000 32) : IVec S1250000 32 :=
  shapeCast S1250000 (extractStridedSlice S1x1250000 ![1, 0] ei slices_S2x1250000_S1x1250000_1_0) shapeCasts_S1x1250000_S1250000

/-- An index with 100000 added where it is negative, as a column. -/
def wrapIdx (i : IVec S1250000 32) : IVec S1250000x1 32 :=
  broadcastInDim S1250000x1 ![0] bcast_S1250000_S1250000x1_0
    (select (cmpi .slt i (broadcastInDim S1250000 ![] bcast_S_S1250000 (constantI S_ 32 0#32)))
      (addi i (broadcastInDim S1250000 ![] bcast_S_S1250000 (constantI S_ 32 100000#32))) i)

/-- Per edge: is the wrapped index between 0 and 99999? -/
def inRangeMask (i : IVec S1250000 32) : IVec S1250000 1 :=
  Host.reduce IntOp.andi
    (andi (cmpi .sge (wrapIdx i) (broadcastInDim S1250000x1 ![] bcast_S_S1250000x1 (constantI S_ 32 0#32)))
      (cmpi .sle (wrapIdx i) (broadcastInDim S1250000x1 ![0, 1] bcast_S1x1_S1250000x1_0_1
        (broadcastInDim S1x1 ![1] bcast_S1_S1x1_1 (constantI S1 32 99999#32)))))
    (constantI S_ 1 1#1) reducesTo_S1250000x1_S1250000_d1 h_S_

/-- The guarded gather of 64-wide rows. -/
def take64 (h : FVec F S100000x64 .f32) (i : IVec S1250000 32) : FVec F S1250000x64 .f32 :=
  select (broadcastInDim S1250000x64 ![0] bcast_S1250000_S1250000x64_0 (inRangeMask i))
    (Host.gather gather_S100000x64_S1250000x1_S1250000x64_1_0_n_n_0_1_164 h (wrapIdx i))
    (broadcastInDim S1250000x64 ![] bcast_S_S1250000x64 (constant S_ .f32 0x7FC00000#32))

/-- The guarded gather of 1-wide rows. -/
def take1 (d : FVec F S100000x1 .f32) (i : IVec S1250000 32) : FVec F S1250000x1 .f32 :=
  select (broadcastInDim S1250000x1 ![0] bcast_S1250000_S1250000x1_0 (inRangeMask i))
    (Host.gather gather_S100000x1_S1250000x1_S1250000x1_1_0_n_n_0_1_11 d (wrapIdx i))
    (broadcastInDim S1250000x1 ![] bcast_S_S1250000x1 (constant S_ .f32 0x7FC00000#32))

/-- The first 64 attention weights as a row. -/
def wiOf (wa : FVec F S128x1 .f32) : FVec F S1x64 .f32 :=
  shapeCast S1x64 (shapeCast S64 (extractStridedSlice S64x1 ![0, 0] wa slices_S128x1_S64x1_0_0) shapeCasts_S64x1_S64) shapeCasts_S64_S1x64

/-- The last 64 attention weights as a row. -/
def wjOf (wa : FVec F S128x1 .f32) : FVec F S1x64 .f32 :=
  shapeCast S1x64 (shapeCast S64 (extractStridedSlice S64x1 ![64, 0] wa slices_S128x1_S64x1_64_0) shapeCasts_S64x1_S64) shapeCasts_S64_S1x64

/-- The attention bias as a 1×1 array. -/
def b11Of (b : FVec F S1 .f32) : FVec F S1x1 .f32 := shapeCast S1x1 b shapeCasts_S1_S1x1

/-- The output bias as a row. -/
def biasRow (bias : FVec F S64 .f32) : FVec F S1x64 .f32 := shapeCast S1x64 bias shapeCasts_S64_S1x64

/-- The per-destination sum of the numerators. -/
def denomOf (num : FVec F S1250000x1 .f32) (d : IVec S1250000 32) : FVec F S100000x1 .f32 :=
  Host.scatterAdd scatter_S100000x1_S1250000x1_S1250000x1_1_0_0_1
    (broadcastInDim S100000x1 ![] bcast_S_S100000x1 (constant S_ .f32 0x00000000#32))
    (broadcastInDim S1250000x1 ![0] bcast_S1250000_S1250000x1_0 d) num

/-- The attention coefficient: numerator over (gathered denominator + the f32 word of 1e-16). -/
def alphaOf (num deng : FVec F S1250000x1 .f32) : FVec F S1250000x1 .f32 :=
  Host.divf num (addf deng (broadcastInDim S1250000x1 ![] bcast_S_S1250000x1 (constant S_ .f32 0x24E69595#32)))

/-- The per-destination sum of the weighted rows. -/
def aggOf (wgt : FVec F S1250000x64 .f32) (d : IVec S1250000 32) : FVec F S100000x64 .f32 :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 d) wgt

/-- The gathered destination rows of the projection. -/
def hiOf (x : FVec Ideal S100000x128 .f32) (ei : IVec S2x1250000 32) (wc : FVec Ideal S128x64 .f32) : FVec Ideal S1250000x64 .f32 :=
  take64 (Cert.Spec.proj x wc) (dstOf ei)

/-- The gathered source rows of the projection. -/
def hjOf (x : FVec Ideal S100000x128 .f32) (ei : IVec S2x1250000 32) (wc : FVec Ideal S128x64 .f32) : FVec Ideal S1250000x64 .f32 :=
  take64 (Cert.Spec.proj x wc) (srcOf ei)

/-- The numerator column. -/
def numOf (x : FVec Ideal S100000x128 .f32) (ei : IVec S2x1250000 32) (wc : FVec Ideal S128x64 .f32) (wa : FVec Ideal S128x1 .f32)
    (b : FVec Ideal S1 .f32) : FVec Ideal S1250000x1 .f32 :=
  Cert.Spec.score (hiOf x ei wc) (hjOf x ei wc) (wiOf wa) (wjOf wa) (b11Of b)

/-- The attention coefficients. -/
def alphaOut (x : FVec Ideal S100000x128 .f32) (ei : IVec S2x1250000 32) (wc : FVec Ideal S128x64 .f32) (wa : FVec Ideal S128x1 .f32)
    (b : FVec Ideal S1 .f32) : FVec Ideal S1250000x1 .f32 :=
  alphaOf (numOf x ei wc wa b) (take1 (denomOf (numOf x ei wc wa b) (dstOf ei)) (dstOf ei))

/-- The kernel program's result as one function of its seven arguments. -/
def kernelOut (x : FVec Ideal S100000x128 .f32) (ei : IVec S2x1250000 32) (wc : FVec Ideal S128x64 .f32) (wa : FVec Ideal S128x1 .f32)
    (b : FVec Ideal S1 .f32) (wr : FVec Ideal S128x64 .f32) (bias : FVec Ideal S64 .f32) : FVec Ideal S100000x64 .f32 :=
  Cert.Spec.combine (aggOf (Cert.Spec.weighted (hjOf x ei wc) (alphaOut x ei wc wa b)) (dstOf ei)) (Cert.Spec.proj x wr) (biasRow bias)

end Cert.KernelIdeal.KT

end
-- ==== Proof.Region0.lean ====
/-
  Region 0 (the two projections). Each of its 20 grid points loads rows 5000·t … 5000·t + 4999 of x and both
  whole weight arrays and stores the two 5000×64 products; the blocks tile the outputs, so after the region
  each output array is the whole product x · w.
-/
import proofs.«419194_j39496519254635_1_alg».proof.Proof.Gen.KernelIdeal.Frame
import proofs.«419194_j39496519254635_1_alg».proof.Proof.SpecProj
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RV

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace R0

/-! ## The block product at an index -/

/-- The left operand's row coordinate is the output's row. -/
theorem lhs_blk_0 (j : S5000x64.Idx) (k : dot_S5000x128_S128x64_S5000x64_1_0_0_1_n_n.contr.Idx) :
    (dot_S5000x128_S128x64_S5000x64_1_0_0_1_n_n.lhsIdx j k 0).val = (j 0).val := by
  simp [DotDims.lhsIdx, dot_S5000x128_S128x64_S5000x64_1_0_0_1_n_n]; rfl

/-- The left operand's column coordinate is the contracted position. -/
theorem lhs_blk_1 (j : S5000x64.Idx) (k : dot_S5000x128_S128x64_S5000x64_1_0_0_1_n_n.contr.Idx) :
    (dot_S5000x128_S128x64_S5000x64_1_0_0_1_n_n.lhsIdx j k 1).val = (k ⟨0, by rw [DotDims.rank_contr]; exact Nat.one_pos⟩).val :=
  DotDims.lhsIdx_val_of_single _ rfl j k

/-- The right operand's row coordinate is the contracted position. -/
theorem rhs_blk_0 (j : S5000x64.Idx) (k : dot_S5000x128_S128x64_S5000x64_1_0_0_1_n_n.contr.Idx) :
    (dot_S5000x128_S128x64_S5000x64_1_0_0_1_n_n.rhsIdx j k 0).val = (k ⟨0, by rw [DotDims.rank_contr]; exact Nat.one_pos⟩).val :=
  DotDims.rhsIdx_val_of_single _ rfl j k

/-- The right operand's column coordinate is the output's column. -/
theorem rhs_blk_1 (j : S5000x64.Idx) (k : dot_S5000x128_S128x64_S5000x64_1_0_0_1_n_n.contr.Idx) :
    (dot_S5000x128_S128x64_S5000x64_1_0_0_1_n_n.rhsIdx j k 1).val = (j 1).val := by
  simp [DotDims.rhsIdx, dot_S5000x128_S128x64_S5000x64_1_0_0_1_n_n]; rfl

/-- A 5000×128 block times a 128×64 array into the zero accumulator, at entry (p, q): the sum over the 128
    contracted positions. -/
theorem blkdot_apply {φ₁ φ₂ : FTy} (a : FVec Ideal S5000x128 φ₁) (b : FVec Ideal S128x64 φ₂) (p : Fin 5000) (q : Fin 64) :
    FloatOps.matmul dot_S5000x128_S128x64_S5000x64_1_0_0_1_n_n none a b (constant (F := Ideal) S5000x64 .f32 0x00000000#32) (ix2 p q)
      = ∑ k : Fin 128, a (ix2 p k) * b (ix2 k q) := by
  rw [Ideal.matmul_constant_zero_apply,
    ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have hl : dot_S5000x128_S128x64_S5000x64_1_0_0_1_n_n.lhsIdx (ix2 p q) ((contrEquiv1 _ 128 rfl rfl).symm k) = ix2 p k := by
    funext ax; apply Fin.ext
    match ax with
    | ⟨0, _⟩ => exact lhs_blk_0 _ _
    | ⟨1, _⟩ => exact (lhs_blk_1 _ _).trans hk
  have hr : dot_S5000x128_S128x64_S5000x64_1_0_0_1_n_n.rhsIdx (ix2 p q) ((contrEquiv1 _ 128 rfl rfl).symm k) = ix2 k q := by
    funext ax; apply Fin.ext
    match ax with
    | ⟨0, _⟩ => exact (rhs_blk_0 _ _).trans hk
    | ⟨1, _⟩ => exact rhs_blk_1 _ _
  rw [hl, hr]

/-- The first payload at entry (p, q): the narrowing of both operands is the identity on the extended reals. -/
theorem pay2_apply (x0 : Vec Ideal S5000x128 .f32) (x1 : Vec Ideal S128x64 .f32) (p : Fin 5000) (q : Fin 64) :
    k0_pay2 (F := Ideal) x0 x1 (ix2 p q) = ∑ k : Fin 128, x0 (ix2 p k) * x1 (ix2 k q) := by
  unfold k0_pay2 k0_pay1
  exact blkdot_apply _ _ p q

/-- The second payload at entry (p, q). -/
theorem pay3_apply (x0 : Vec Ideal S5000x128 .f32) (x2 : Vec Ideal S128x64 .f32) (p : Fin 5000) (q : Fin 64) :
    k0_pay3 (F := Ideal) x0 x2 (ix2 p q) = ∑ k : Fin 128, x0 (ix2 p k) * x2 (ix2 k q) := by
  unfold k0_pay3 k0_pay1
  exact blkdot_apply _ _ p q

/-! ## The windows' blocks as rows of the arrays -/

theorem hz : (![0, 0] : Fin 2 → Nat) = fun _ => 0 := funext fun a => by fin_cases a <;> rfl

/-- The index maps, decided over the 20 grid points: the row-tiled windows sit at block row t, the weights at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Block t of x is rows 5000·t … 5000·t + 4999 of x. -/
theorem xblk_apply (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_arg0 : S100000x128.Idx → Elt Ideal .f32) i := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The first weight window's block is the whole array. -/
theorem w1blk_apply (c : Dev nD) (t : Fin cfg0.N) (y : S128x64.Idx) :
    (iblk0 V c 1 t : Vec Ideal S128x64 .f32) y = (V c main_arg2 : S128x64.Idx → Elt Ideal .f32) y := by
  obtain ⟨-, -, e0, e1, -⟩ := idx0 t
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The second weight window's block is the whole array. -/
theorem w2blk_apply (c : Dev nD) (t : Fin cfg0.N) (y : S128x64.Idx) :
    (iblk0 V c 2 t : Vec Ideal S128x64 .f32) y = (V c main_arg5 : S128x64.Idx → Elt Ideal .f32) y := by
  obtain ⟨-, -, -, -, e0, e1, -⟩ := idx0 t
  unfold iblk0
  rw [View.read_apply]
  show V c main_arg5 _ = V c main_arg5 _
  congr 1
  funext a
  apply Fin.ext
  match a with
  | ⟨0, _⟩ => show win0_2.index t (0 : Fin 2) * 128 + 1 * (y 0).val = (y 0).val; omega
  | ⟨1, _⟩ => show win0_2.index t (1 : Fin 2) * 64 + 1 * (y 1).val = (y 1).val; omega

/-! ## What a point writes back, and the arrays after the region -/

/-- The product at entry (r, s). -/
theorem proj_apply (x : FVec Ideal S100000x128 .f32) (w : FVec Ideal S128x64 .f32) (r : Fin 100000) (s : Fin 64) :
    Cert.Spec.proj x w (ix2 r s) = ∑ k : Fin 128, x (ix2 r k) * w (ix2 k s) := rfl

/-- Point t writes back block t of x · W_conv. -/
theorem flushed3_eq (c : Dev nD) (t : Fin cfg0.N) :
    (dat0 V c).flushed 3 t = ((cfg0.win 3).blk t).view.read (Elt Ideal) (Cert.Spec.proj (V c main_arg0) (V c main_arg2)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz]
  obtain ⟨-, -, -, -, -, -, e0, e1, -⟩ := idx0 t
  funext j
  obtain ⟨p, q, rfl⟩ : ∃ (p : Fin 5000) (q : Fin 64), j = ix2 p q := ⟨j 0, j 1, eq_ix2 j⟩
  have hp : p.val < 5000 := p.isLt
  have ht : t.val < 20 := t.isLt
  show k0_pay2 (F := Ideal) (iblk0 V c 0 t) (iblk0 V c 1 t) (ix2 p q)
    = Cert.Spec.proj (V c main_arg0) (V c main_arg2) (((cfg0.win 3).blk t).view.emb (ix2 p q))
  rw [pay2_apply]
  have hr : (((cfg0.win 3).blk t).view.emb (ix2 p q) (0 : Fin 2)).val = 5000 * t.val + p.val := by
    show win0_3.index t (0 : Fin 2) * 5000 + 1 * p.val = _; omega
  have hc : (((cfg0.win 3).blk t).view.emb (ix2 p q) (1 : Fin 2)).val = q.val := by
    show win0_3.index t (1 : Fin 2) * 64 + 1 * q.val = _; omega
  generalize ((cfg0.win 3).blk t).view.emb (ix2 p q) = i at hr hc ⊢
  obtain ⟨r, s, rfl⟩ : ∃ (r : Fin 100000) (s : Fin 64), (i : S100000x64.Idx) = ix2 r s :=
    ⟨i 0, i 1, eq_ix2 (n0 := 100000) (n1 := 64) i⟩
  obtain rfl : s = q := Fin.ext hc
  rw [proj_apply]
  refine Finset.sum_congr rfl fun k _ => ?_
  rw [xblk_apply V c t (ix2 p k) (ix2 r k) hr rfl, w1blk_apply V c t (ix2 k s)]

/-- Point t writes back block t of x · W_res. -/
theorem flushed4_eq (c : Dev nD) (t : Fin cfg0.N) :
    (dat0 V c).flushed 4 t = ((cfg0.win 4).blk t).view.read (Elt Ideal) (Cert.Spec.proj (V c main_arg0) (V c main_arg5)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x64) hz]
  obtain ⟨-, -, -, -, -, -, -, -, e0, e1⟩ := idx0 t
  funext j
  obtain ⟨p, q, rfl⟩ : ∃ (p : Fin 5000) (q : Fin 64), j = ix2 p q := ⟨j 0, j 1, eq_ix2 j⟩
  have hp : p.val < 5000 := p.isLt
  have ht : t.val < 20 := t.isLt
  show k0_pay3 (F := Ideal) (iblk0 V c 0 t) (iblk0 V c 2 t) (ix2 p q)
    = Cert.Spec.proj (V c main_arg0) (V c main_arg5) (((cfg0.win 4).blk t).view.emb (ix2 p q))
  rw [pay3_apply]
  have hr : (((cfg0.win 4).blk t).view.emb (ix2 p q) (0 : Fin 2)).val = 5000 * t.val + p.val := by
    show win0_4.index t (0 : Fin 2) * 5000 + 1 * p.val = _; omega
  have hc : (((cfg0.win 4).blk t).view.emb (ix2 p q) (1 : Fin 2)).val = q.val := by
    show win0_4.index t (1 : Fin 2) * 64 + 1 * q.val = _; omega
  generalize ((cfg0.win 4).blk t).view.emb (ix2 p q) = i at hr hc ⊢
  obtain ⟨r, s, rfl⟩ : ∃ (r : Fin 100000) (s : Fin 64), (i : S100000x64.Idx) = ix2 r s :=
    ⟨i 0, i 1, eq_ix2 (n0 := 100000) (n1 := 64) i⟩
  obtain rfl : s = q := Fin.ext hc
  rw [proj_apply]
  refine Finset.sum_congr rfl fun k _ => ?_
  rw [xblk_apply V c t (ix2 p k) (ix2 r k) hr rfl, w2blk_apply V c t (ix2 k s)]

/-- An index of the first output is in point t's block iff each coordinate is in the block's range on its axis. -/
theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v4_0).slice (win0_3.rect t)).set ↔ _
  rw [View.set_slice_whole, Rect.mem_set_unit]
  exact Iff.rfl

/-- The same for the second output. -/
theorem mem_blk4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v4_1).slice (win0_4.rect t)).set ↔ _
  rw [View.set_slice_whole, Rect.mem_set_unit]
  exact Iff.rfl

/-- Row r of the first output is in the block of point r / 5000, which writes back. -/
theorem cover3 (i : S100000x64.Idx) : ∃ t : Fin cfg0.N, (cfg0.win 3).flush t = true ∧ i ∈ ((cfg0.win 3).blk t).view.set := by
  have h0 : (i 0).val < 100000 := idx2_lt0 i
  have h1 : (i 1).val < 64 := idx2_lt1 i
  have hN : cfg0.N = 20 := N_0
  let t : Fin cfg0.N := ⟨(i 0).val / 5000, by rw [hN]; omega⟩
  obtain ⟨-, -, -, -, -, -, e0, e1, -⟩ := idx0 t
  have ht : t.val = (i 0).val / 5000 := rfl
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- Row r of the second output is in the block of point r / 5000, which writes back. -/
theorem cover4 (i : S100000x64.Idx) : ∃ t : Fin cfg0.N, (cfg0.win 4).flush t = true ∧ i ∈ ((cfg0.win 4).blk t).view.set := by
  have h0 : (i 0).val < 100000 := idx2_lt0 i
  have h1 : (i 1).val < 64 := idx2_lt1 i
  have hN : cfg0.N = 20 := N_0
  let t : Fin cfg0.N := ⟨(i 0).val / 5000, by rw [hN]; omega⟩
  obtain ⟨-, -, -, -, -, -, -, -, e0, e1⟩ := idx0 t
  have ht : t.val = (i 0).val / 5000 := rfl
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

end R0

open R0

/-! ## The two output arrays after the region -/

/-- After region 0 its first output array is x · W_conv, whatever the region was entered from. -/
theorem final0_3 (c : Dev nD) : (dat0 V c).arrAt 3 cfg0.N = Cert.Spec.proj (V c main_arg0) (V c main_arg2) :=
  (dat0 V c).arrAt_eq_of_cover 3 (Cert.Spec.proj (V c main_arg0) (V c main_arg2)) (fun t _ => flushed3_eq V c t) cover3

/-- After region 0 its second output array is x · W_res. -/
theorem final0_4 (c : Dev nD) : (dat0 V c).arrAt 4 cfg0.N = Cert.Spec.proj (V c main_arg0) (V c main_arg5) :=
  (dat0 V c).arrAt_eq_of_cover 4 (Cert.Spec.proj (V c main_arg0) (V c main_arg5)) (fun t _ => flushed4_eq V c t) cover4

end Cert.KernelIdeal.RV

end
-- ==== Proof.Region1.lean ====
/-
  Region 1 (the attention numerator). Each of its 250 grid points loads 5000 rows of the two gathered
  feature arrays and the two weight rows and the bias, and stores the 5000 numerators; the blocks tile
  the output column.
-/
import proofs.«419194_j39496519254635_1_alg».proof.Proof.Gen.KernelIdeal.Frame
import proofs.«419194_j39496519254635_1_alg».proof.Proof.SpecScore
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RV

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's payload at an index -/

/-- A reduced index with the lane coordinate put back is the pair of the row and the lane. -/
theorem lift_row (p : Fin 5000) (k : Fin 64) :
    (reduces_S5000x64_S5000 : S5000x64.Reduces [1] S5000).lift (ix1 p) k = ix2 p k := by
  funext a
  apply Fin.ext
  match a with
  | ⟨0, _⟩ => rfl
  | ⟨1, _⟩ => rfl

/-- A lane sum at row p is the sum over the 64 lanes. -/
theorem laneSum0 (y : FVec Ideal S5000x64 .f32) (p : Fin 5000) :
    multiReduction (F := Ideal) .add [1] S5000 y 0x00000000#32 reduces_S5000x64_S5000 (.inl rfl) rfl (ix1 p)
      = ∑ k : Fin 64, y (ix2 p k) := by
  have h := Ideal.multiReduction_add_single (φ := .f32) y 0x00000000#32 reduces_S5000x64_S5000 (.inl rfl) rfl (ix1 p)
  rw [h]
  exact Finset.sum_congr rfl fun k _ => congrArg y (lift_row p k)

/-- A vector of 5000 laid out as a column reads its row. -/
theorem col_apply (v : FVec Ideal S5000 .f32) (p : Fin 5000) :
    shapeCast S5000x1 v shapeCasts_S5000_S5000x1 (ix2 p 0) = v (ix1 p) :=
  shapeCast_apply v _ (ix2 p 0) (ix1 p) (by
    rw [Shape.rowMajor_val_one, Shape.rowMajor_val_two]
    show p.val = p.val * 1 + 0
    omega)

/-- The lane sum of a block of rows against one broadcast row, kept as a column: at row p it is Σ_k x[p, k] · w[0, k]. -/
theorem laneSum_apply (x : FVec Ideal S5000x64 .f32) (w : FVec Ideal S1x64 .f32) (p : Fin 5000) :
    shapeCast S5000x1 (multiReduction (F := Ideal) .add [1] S5000 (mulf x (broadcastTo S5000x64 w broadcasts_S1x64_S5000x64))
        0x00000000#32 reduces_S5000x64_S5000 (.inl rfl) rfl) shapeCasts_S5000_S5000x1 (ix2 p 0)
      = ∑ k : Fin 64, x (ix2 p k) * w (ix2 0 k) := by
  rw [col_apply, laneSum0]
  refine Finset.sum_congr rfl fun k _ => ?_
  rw [mulf_apply, broadcastTo_1b_ab_apply]

/-- The rectifier and exponential of the payload, at one index, is the scalar function of the score there. -/
theorem leaky_of (v : FVec Ideal S5000x1 .f32) (i : S5000x1.Idx) :
    exp (select (cmpf .oge v (broadcast S5000x1 (Scalar.ofBits (F := Ideal) .f32 0x00000000#32))) v
      (mulf (broadcast S5000x1 (Scalar.ofBits (F := Ideal) .f32 0x3E4CCCCD#32)) v)) i = Cert.Spec.leakyExp (v i) := rfl

/-- The body's payload at row p of its block. -/
theorem pay1_apply (x0 x1 : Vec Ideal S5000x64 .f32) (x2 x3 : Vec Ideal S1x64 .f32) (x4 : Vec Ideal S1x1 .f32) (p : Fin 5000) :
    k1_pay1 x0 x1 x2 x3 x4 (ix2 p 0)
      = Cert.Spec.leakyExp ((∑ k : Fin 64, x0 (ix2 p k) * x2 (ix2 0 k)) + (∑ k : Fin 64, x1 (ix2 p k) * x3 (ix2 0 k)) + x4 (ix2 0 0)) := by
  unfold k1_pay1
  simp only [shapeCast_self]
  rw [leaky_of, addf_apply, addf_apply, laneSum_apply, laneSum_apply]
  congr 2
  refine broadcastTo_apply x4 _ (ix2 p 0) (ix2 0 0) fun a => ?_
  match a with
  | ⟨0, _⟩ => rfl
  | ⟨1, _⟩ => rfl

/-- The payload at row p is the numerator at edge e, when its five blocks read the five arrays at edge e's rows. -/
theorem pay1_eq_score (x0 x1 : Vec Ideal S5000x64 .f32) (x2 x3 : Vec Ideal S1x64 .f32) (x4 : Vec Ideal S1x1 .f32)
    (hi hj : FVec Ideal S1250000x64 .f32) (wi wj : FVec Ideal S1x64 .f32) (b : FVec Ideal S1x1 .f32) (p : Fin 5000) (e : Fin 1250000)
    (h0 : ∀ k : Fin 64, x0 (ix2 p k) = hi (ix2 e k)) (h1 : ∀ k : Fin 64, x1 (ix2 p k) = hj (ix2 e k))
    (h2 : ∀ k : Fin 64, x2 (ix2 0 k) = wi (ix2 0 k)) (h3 : ∀ k : Fin 64, x3 (ix2 0 k) = wj (ix2 0 k))
    (h4 : x4 (ix2 0 0) = b (ix2 0 0)) :
    k1_pay1 x0 x1 x2 x3 x4 (ix2 p 0) = Cert.Spec.score hi hj wi wj b (ix2 e 0) := by
  rw [pay1_apply]
  show _ = Cert.Spec.leakyExp (Cert.Spec.scoreAt hi hj wi wj b e)
  unfold Cert.Spec.scoreAt
  simp only [h0, h1, h2, h3, h4]

/-! ## The blocks of the arrays -/

variable (V : (c : Dev nD) → (b : Ref sig .tc) → Buf (Elt Ideal) ((c : Thread nD τ).loc b))

theorem hz1 : (![0, 0] : Fin 2 → Nat) = fun _ => 0 := funext fun a => by fin_cases a <;> rfl

/-- The block indices over the grid: a row-tiled window is at block (t, 0), a small whole array at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block of the first feature array is row 5000 t + p of the array. -/
theorem iblk1_0_apply (c : Dev nD) (t : Fin cfg1.N) (p : Fin 5000) (k : Fin 64) (e : Fin 1250000)
    (he : e.val = t.val * 5000 + p.val) : iblk1 V c 0 t (ix2 p k) = V c main_v5 (ix2 e k) := by
  obtain ⟨e0, e1, -⟩ := idx1 t
  unfold iblk1
  show V c main_v5 (((cfg1.win 0).blk t).view.emb (ix2 p k)) = V c main_v5 (ix2 e k)
  congr 1
  funext a
  apply Fin.ext
  match a with
  | ⟨0, _⟩ => show win1_0.index t (0 : Fin 2) * 5000 + 1 * p.val = e.val; omega
  | ⟨1, _⟩ => show win1_0.index t (1 : Fin 2) * 64 + 1 * k.val = k.val; omega

/-- Row p of point t's block of the second feature array is row 5000 t + p of the array. -/
theorem iblk1_1_apply (c : Dev nD) (t : Fin cfg1.N) (p : Fin 5000) (k : Fin 64) (e : Fin 1250000)
    (he : e.val = t.val * 5000 + p.val) : iblk1 V c 1 t (ix2 p k) = V c main_v6 (ix2 e k) := by
  obtain ⟨-, -, e0, e1, -⟩ := idx1 t
  unfold iblk1
  show V c main_v6 (((cfg1.win 1).blk t).view.emb (ix2 p k)) = V c main_v6 (ix2 e k)
  congr 1
  funext a
  apply Fin.ext
  match a with
  | ⟨0, _⟩ => show win1_1.index t (0 : Fin 2) * 5000 + 1 * p.val = e.val; omega
  | ⟨1, _⟩ => show win1_1.index t (1 : Fin 2) * 64 + 1 * k.val = k.val; omega

/-- The first weight row's block is the whole row at every point. -/
theorem iblk1_2_apply (c : Dev nD) (t : Fin cfg1.N) (k : Fin 64) : iblk1 V c 2 t (ix2 0 k) = V c main_v9 (ix2 0 k) := by
  obtain ⟨-, -, -, -, e0, e1, -⟩ := idx1 t
  unfold iblk1
  show V c main_v9 (((cfg1.win 2).blk t).view.emb (ix2 0 k)) = V c main_v9 (ix2 0 k)
  congr 1
  funext a
  apply Fin.ext
  match a with
  | ⟨0, _⟩ => show win1_2.index t (0 : Fin 2) * 1 + 1 * 0 = 0; omega
  | ⟨1, _⟩ => show win1_2.index t (1 : Fin 2) * 64 + 1 * k.val = k.val; omega

/-- The second weight row's block is the whole row at every point. -/
theorem iblk1_3_apply (c : Dev nD) (t : Fin cfg1.N) (k : Fin 64) : iblk1 V c 3 t (ix2 0 k) = V c main_v12 (ix2 0 k) := by
  obtain ⟨-, -, -, -, -, -, e0, e1, -⟩ := idx1 t
  unfold iblk1
  show V c main_v12 (((cfg1.win 3).blk t).view.emb (ix2 0 k)) = V c main_v12 (ix2 0 k)
  congr 1
  funext a
  apply Fin.ext
  match a with
  | ⟨0, _⟩ => show win1_3.index t (0 : Fin 2) * 1 + 1 * 0 = 0; omega
  | ⟨1, _⟩ => show win1_3.index t (1 : Fin 2) * 64 + 1 * k.val = k.val; omega

/-- The bias's block is the bias at every point. -/
theorem iblk1_4_apply (c : Dev nD) (t : Fin cfg1.N) : iblk1 V c 4 t (ix2 0 0) = V c main_v13 (ix2 0 0) := by
  obtain ⟨-, -, -, -, -, -, -, -, e0, e1, -⟩ := idx1 t
  unfold iblk1
  show V c main_v13 (((cfg1.win 4).blk t).view.emb (ix2 0 0)) = V c main_v13 (ix2 0 0)
  congr 1
  funext a
  apply Fin.ext
  match a with
  | ⟨0, _⟩ => show win1_4.index t (0 : Fin 2) * 1 + 1 * 0 = 0; omega
  | ⟨1, _⟩ => show win1_4.index t (1 : Fin 2) * 1 + 1 * 0 = 0; omega

/-- What point t writes back is block t of the numerator column. -/
theorem flushed1_5_eq (c : Dev nD) (t : Fin cfg1.N) :
    (dat1 V c).flushed 5 t = ((cfg1.win 5).blk t).view.read (Elt Ideal)
      (Cert.Spec.score (V c main_v5) (V c main_v6) (V c main_v9) (V c main_v12) (V c main_v13)) := by
  show (cfg1.win 5).cut (grid1.coords t) ((dat1 V c).after 5 t) = _
  rw [after1_5]
  unfold out1_5
  rw [View.canon_unit_zero hz1]
  simp only [View.ld_unit_zero (S := S5000x64) hz1, View.ld_unit_zero (S := S1x64) hz1, View.ld_unit_zero (S := S1x1) hz1]
  obtain ⟨-, -, -, -, -, -, -, -, -, -, e0, e1⟩ := idx1 t
  have ht : t.val < 250 := t.isLt
  refine funext fun (j : S5000x1.Idx) => ?_
  obtain ⟨p, q, rfl⟩ : ∃ (p : Fin 5000) (q : Fin 1), j = ix2 p q := ⟨j 0, j 1, eq_ix2 j⟩
  obtain rfl : q = 0 := Subsingleton.elim _ _
  have hp : p.val < 5000 := p.isLt
  show k1_pay1 (iblk1 V c 0 t) (iblk1 V c 1 t) (iblk1 V c 2 t) (iblk1 V c 3 t) (iblk1 V c 4 t) (ix2 p 0)
    = Cert.Spec.score (V c main_v5) (V c main_v6) (V c main_v9) (V c main_v12) (V c main_v13) (((cfg1.win 5).blk t).view.emb (ix2 p 0))
  obtain ⟨e, he⟩ : ∃ e : Fin 1250000, e.val = t.val * 5000 + p.val := ⟨⟨t.val * 5000 + p.val, by omega⟩, rfl⟩
  have hemb : ((cfg1.win 5).blk t).view.emb (ix2 p 0) = ix2 e (0 : Fin 1) := by
    funext a
    apply Fin.ext
    match a with
    | ⟨0, _⟩ => show win1_5.index t (0 : Fin 2) * 5000 + 1 * p.val = e.val; omega
    | ⟨1, _⟩ => show win1_5.index t (1 : Fin 2) * 1 + 1 * 0 = 0; omega
  rw [hemb]
  exact pay1_eq_score _ _ _ _ _ _ _ _ _ _ p e (fun k => iblk1_0_apply V c t p k e he) (fun k => iblk1_1_apply V c t p k e he)
    (fun k => iblk1_2_apply V c t k) (fun k => iblk1_3_apply V c t k) (iblk1_4_apply V c t)

/-- An index of the column is in point t's block iff each coordinate is in the block's range on its axis. -/
theorem mem_blk1_5 (t : Fin cfg1.N) (i : S1250000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v14).slice (win1_5.rect t)).set ↔ _
  rw [View.set_slice_whole, Rect.mem_set_unit]
  exact Iff.rfl

/-- The grid has 250 points. -/
theorem N1 : cfg1.N = 250 := by decide

/-- Row r of the column is in the block of point r / 5000. -/
theorem cover1_5' (i : S1250000x1.Idx) :
    ∃ t : Fin cfg1.N, (cfg1.win 5).flush t = true ∧ i ∈ ((cfg1.win 5).blk t).view.set := by
  have hi0 : (i 0).val < 1250000 := (i 0).isLt
  have hi1 : (i 1).val < 1 := (i 1).isLt
  let t : Fin cfg1.N := ⟨(i 0).val / 5000, by rw [N1]; omega⟩
  have htv : t.val = (i 0).val / 5000 := rfl
  obtain ⟨-, -, -, -, -, -, -, -, -, -, e0, e1⟩ := idx1 t
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 1 ≤ (i 1).val ∧ (i 1).val < win1_5.index t (1 : Fin 2) * 1 + 1; omega

/-- After region 1 its output array is the numerator column of the arrays it was entered from. -/
theorem final1_5 (c : Dev nD) : (dat1 V c).arrAt 5 cfg1.N
    = Cert.Spec.score (V c main_v5) (V c main_v6) (V c main_v9) (V c main_v12) (V c main_v13) := by
  exact (dat1 V c).arrAt_eq_of_cover 5 _ (fun t _ => flushed1_5_eq V c t) cover1_5'

end Cert.KernelIdeal.RV

end
-- ==== Proof.KernelValueA.lean ====
/-
  The kernel program's buffers at the exit of region 1 (boundary 6 of @main), read back through region 0,
  the three host stretches after it and region 1 to the launch memory: the numerator column, the gathered
  source rows, the destination indices, the residual projection, and the output bias still as launched.
-/
import proofs.«419194_j39496519254635_1_alg».proof.Proof.Gen.KernelIdeal.Frame
import proofs.«419194_j39496519254635_1_alg».proof.Proof.KTerm
import proofs.«419194_j39496519254635_1_alg».proof.Proof.Region0
import proofs.«419194_j39496519254635_1_alg».proof.Proof.Region1
import Idealize.ShloMosaic.Lib.StableHlo.Run

set_option maxRecDepth 16384

noncomputable section

namespace Cert.KernelIdeal.KV

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- A buffer that no operation of a host stretch writes holds after the stretch what it held before. -/
macro "carry_host " ops:ident : tactic =>
  `(tactic| (
    refine StableHlo.after_of_forall_not_mem _ _ (List.forall_iff_forall_mem.mp ?_)
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The launch memory at region 0's entry: the arguments as launched, the two index rows of the edge table -/

theorem arg0_W1 (c : Dev nD) : W1 m ρ c (Proc.devRef .tc main_arg0) = m ((c : Thread nD τ).loc main_arg0) :=
  calc W1 m ρ c (Proc.devRef .tc main_arg0)
    _ = W0 m ρ c (Proc.devRef .tc main_arg0) := by carry_host hostOps0
    _ = m ((c : Thread nD τ).loc main_arg0) := rfl

theorem arg2_W1 (c : Dev nD) : W1 m ρ c (Proc.devRef .tc main_arg2) = m ((c : Thread nD τ).loc main_arg2) :=
  calc W1 m ρ c (Proc.devRef .tc main_arg2)
    _ = W0 m ρ c (Proc.devRef .tc main_arg2) := by carry_host hostOps0
    _ = m ((c : Thread nD τ).loc main_arg2) := rfl

theorem arg5_W1 (c : Dev nD) : W1 m ρ c (Proc.devRef .tc main_arg5) = m ((c : Thread nD τ).loc main_arg5) :=
  calc W1 m ρ c (Proc.devRef .tc main_arg5)
    _ = W0 m ρ c (Proc.devRef .tc main_arg5) := by carry_host hostOps0
    _ = m ((c : Thread nD τ).loc main_arg5) := rfl

theorem arg3_W1 (c : Dev nD) : W1 m ρ c (Proc.devRef .tc main_arg3) = m ((c : Thread nD τ).loc main_arg3) :=
  calc W1 m ρ c (Proc.devRef .tc main_arg3)
    _ = W0 m ρ c (Proc.devRef .tc main_arg3) := by carry_host hostOps0
    _ = m ((c : Thread nD τ).loc main_arg3) := rfl

theorem arg4_W1 (c : Dev nD) : W1 m ρ c (Proc.devRef .tc main_arg4) = m ((c : Thread nD τ).loc main_arg4) :=
  calc W1 m ρ c (Proc.devRef .tc main_arg4)
    _ = W0 m ρ c (Proc.devRef .tc main_arg4) := by carry_host hostOps0
    _ = m ((c : Thread nD τ).loc main_arg4) := rfl

theorem arg6_W1 (c : Dev nD) : W1 m ρ c (Proc.devRef .tc main_arg6) = m ((c : Thread nD τ).loc main_arg6) :=
  calc W1 m ρ c (Proc.devRef .tc main_arg6)
    _ = W0 m ρ c (Proc.devRef .tc main_arg6) := by carry_host hostOps0
    _ = m ((c : Thread nD τ).loc main_arg6) := rfl

theorem v1_W1 (c : Dev nD) : W1 m ρ c (Proc.devRef .tc main_v1) = KT.srcOf (m ((c : Thread nD τ).loc main_arg1)) := by
  show StableHlo.after hostOps0 _ (Proc.devRef .tc main_v1) = _
  dsimp only [hostOps0]
  after_results
  rfl

theorem v3_W1 (c : Dev nD) : W1 m ρ c (Proc.devRef .tc main_v3) = KT.dstOf (m ((c : Thread nD τ).loc main_arg1)) := by
  show StableHlo.after hostOps0 _ (Proc.devRef .tc main_v3) = _
  dsimp only [hostOps0]
  after_results
  rfl

/-! ## At region 0's exit: the two projections, everything else as entered -/

theorem v4_0_W2 (c : Dev nD) :
    W2 m ρ c (Proc.devRef .tc main_v4_0)
      = Cert.Spec.proj (m ((c : Thread nD τ).loc main_arg0)) (m ((c : Thread nD τ).loc main_arg2)) := by
  refine (W2_arr m ρ c 3).trans ((RV.final0_3 (V1 m ρ) c).trans ?_)
  show Cert.Spec.proj (W1 m ρ c (Proc.devRef .tc main_arg0)) (W1 m ρ c (Proc.devRef .tc main_arg2)) = _
  rw [arg0_W1, arg2_W1]

theorem v4_1_W2 (c : Dev nD) :
    W2 m ρ c (Proc.devRef .tc main_v4_1)
      = Cert.Spec.proj (m ((c : Thread nD τ).loc main_arg0)) (m ((c : Thread nD τ).loc main_arg5)) := by
  refine (W2_arr m ρ c 4).trans ((RV.final0_4 (V1 m ρ) c).trans ?_)
  show Cert.Spec.proj (W1 m ρ c (Proc.devRef .tc main_arg0)) (W1 m ρ c (Proc.devRef .tc main_arg5)) = _
  rw [arg0_W1, arg5_W1]

theorem v1_W2 (c : Dev nD) : W2 m ρ c (Proc.devRef .tc main_v1) = KT.srcOf (m ((c : Thread nD τ).loc main_arg1)) :=
  (W2_of_ne m ρ c main_v1 (by decide)).trans (v1_W1 m ρ c)

theorem v3_W2 (c : Dev nD) : W2 m ρ c (Proc.devRef .tc main_v3) = KT.dstOf (m ((c : Thread nD τ).loc main_arg1)) :=
  (W2_of_ne m ρ c main_v3 (by decide)).trans (v3_W1 m ρ c)

theorem arg3_W2 (c : Dev nD) : W2 m ρ c (Proc.devRef .tc main_arg3) = m ((c : Thread nD τ).loc main_arg3) :=
  (W2_of_ne m ρ c main_arg3 (by decide)).trans (arg3_W1 m ρ c)

theorem arg4_W2 (c : Dev nD) : W2 m ρ c (Proc.devRef .tc main_arg4) = m ((c : Thread nD τ).loc main_arg4) :=
  (W2_of_ne m ρ c main_arg4 (by decide)).trans (arg4_W1 m ρ c)

theorem arg6_W2 (c : Dev nD) : W2 m ρ c (Proc.devRef .tc main_arg6) = m ((c : Thread nD τ).loc main_arg6) :=
  (W2_of_ne m ρ c main_arg6 (by decide)).trans (arg6_W1 m ρ c)

/-! ## After the first guarded gather: the destination rows gathered, everything it does not write as before -/

attribute [local irreducible] Host.gather Host.reduce Host.scatterAdd

/-- Contents moved to a typed reference's buffer and back are the contents. -/
theorem ofBuf_toBuf {T : BufTy} (x : StableHlo.TRef sig T) (v : T.Contents (Elt Ideal)) : x.ofBuf (x.toBuf v) = v := by
  obtain ⟨r, h, h1, h2⟩ := x
  subst h
  rfl

theorem v5_W3 (c : Dev nD) :
    W3 m ρ c (Proc.devRef .tc main_v5)
      = KT.take64 (F := Ideal) (W2 m ρ c (Proc.devRef .tc main_v4_0)) (W2 m ρ c (Proc.devRef .tc main_v3)) := by
  show StableHlo.after hostOps1 (W2 m ρ c) (Proc.devRef .tc main_v5) = _
  generalize W2 m ρ c = V
  dsimp only [hostOps1]
  after_results_simp
  simp only [ofBuf_toBuf]
  generalize V (Proc.devRef .tc main_v4_0) = h
  generalize V (Proc.devRef .tc main_v3) = i
  exact rfl

theorem v4_0_W3 (c : Dev nD) : W3 m ρ c (Proc.devRef .tc main_v4_0) = W2 m ρ c (Proc.devRef .tc main_v4_0) := by
  show StableHlo.after hostOps1 _ (Proc.devRef .tc main_v4_0) = _
  carry_host hostOps1

theorem v1_W3 (c : Dev nD) : W3 m ρ c (Proc.devRef .tc main_v1) = W2 m ρ c (Proc.devRef .tc main_v1) := by
  show StableHlo.after hostOps1 _ (Proc.devRef .tc main_v1) = _
  carry_host hostOps1

theorem v3_W3 (c : Dev nD) : W3 m ρ c (Proc.devRef .tc main_v3) = W2 m ρ c (Proc.devRef .tc main_v3) := by
  show StableHlo.after hostOps1 _ (Proc.devRef .tc main_v3) = _
  carry_host hostOps1

theorem v4_1_W3 (c : Dev nD) : W3 m ρ c (Proc.devRef .tc main_v4_1) = W2 m ρ c (Proc.devRef .tc main_v4_1) := by
  show StableHlo.after hostOps1 _ (Proc.devRef .tc main_v4_1) = _
  carry_host hostOps1

theorem arg3_W3 (c : Dev nD) : W3 m ρ c (Proc.devRef .tc main_arg3) = W2 m ρ c (Proc.devRef .tc main_arg3) := by
  show StableHlo.after hostOps1 _ (Proc.devRef .tc main_arg3) = _
  carry_host hostOps1

theorem arg4_W3 (c : Dev nD) : W3 m ρ c (Proc.devRef .tc main_arg4) = W2 m ρ c (Proc.devRef .tc main_arg4) := by
  show StableHlo.after hostOps1 _ (Proc.devRef .tc main_arg4) = _
  carry_host hostOps1

theorem arg6_W3 (c : Dev nD) : W3 m ρ c (Proc.devRef .tc main_arg6) = W2 m ρ c (Proc.devRef .tc main_arg6) := by
  show StableHlo.after hostOps1 _ (Proc.devRef .tc main_arg6) = _
  carry_host hostOps1

/-! ## After the second guarded gather: the source rows gathered too -/

theorem v6_W4 (c : Dev nD) :
    W4 m ρ c (Proc.devRef .tc main_v6)
      = KT.take64 (F := Ideal) (W3 m ρ c (Proc.devRef .tc main_v4_0)) (W3 m ρ c (Proc.devRef .tc main_v1)) := by
  show StableHlo.after hostOps1_1 (W3 m ρ c) (Proc.devRef .tc main_v6) = _
  generalize W3 m ρ c = V
  dsimp only [hostOps1_1]
  after_results_simp
  simp only [ofBuf_toBuf]
  generalize V (Proc.devRef .tc main_v4_0) = h
  generalize V (Proc.devRef .tc main_v1) = i
  exact rfl

theorem v5_W4 (c : Dev nD) : W4 m ρ c (Proc.devRef .tc main_v5) = W3 m ρ c (Proc.devRef .tc main_v5) := by
  show StableHlo.after hostOps1_1 _ (Proc.devRef .tc main_v5) = _
  carry_host hostOps1_1

theorem v3_W4 (c : Dev nD) : W4 m ρ c (Proc.devRef .tc main_v3) = W3 m ρ c (Proc.devRef .tc main_v3) := by
  show StableHlo.after hostOps1_1 _ (Proc.devRef .tc main_v3) = _
  carry_host hostOps1_1

theorem v4_1_W4 (c : Dev nD) : W4 m ρ c (Proc.devRef .tc main_v4_1) = W3 m ρ c (Proc.devRef .tc main_v4_1) := by
  show StableHlo.after hostOps1_1 _ (Proc.devRef .tc main_v4_1) = _
  carry_host hostOps1_1

theorem arg3_W4 (c : Dev nD) : W4 m ρ c (Proc.devRef .tc main_arg3) = W3 m ρ c (Proc.devRef .tc main_arg3) := by
  show StableHlo.after hostOps1_1 _ (Proc.devRef .tc main_arg3) = _
  carry_host hostOps1_1

theorem arg4_W4 (c : Dev nD) : W4 m ρ c (Proc.devRef .tc main_arg4) = W3 m ρ c (Proc.devRef .tc main_arg4) := by
  show StableHlo.after hostOps1_1 _ (Proc.devRef .tc main_arg4) = _
  carry_host hostOps1_1

theorem arg6_W4 (c : Dev nD) : W4 m ρ c (Proc.devRef .tc main_arg6) = W3 m ρ c (Proc.devRef .tc main_arg6) := by
  show StableHlo.after hostOps1_1 _ (Proc.devRef .tc main_arg6) = _
  carry_host hostOps1_1

/-! ## At region 1's entry: the two halves of the attention weights as rows, the attention bias as a 1×1 array -/

theorem v9_W5 (c : Dev nD) :
    W5 m ρ c (Proc.devRef .tc main_v9) = KT.wiOf (F := Ideal) (W4 m ρ c (Proc.devRef .tc main_arg3)) := by
  show StableHlo.after hostOps1_2 (W4 m ρ c) (Proc.devRef .tc main_v9) = _
  generalize W4 m ρ c = V
  dsimp only [hostOps1_2]
  after_results
  rfl

theorem v12_W5 (c : Dev nD) :
    W5 m ρ c (Proc.devRef .tc main_v12) = KT.wjOf (F := Ideal) (W4 m ρ c (Proc.devRef .tc main_arg3)) := by
  show StableHlo.after hostOps1_2 (W4 m ρ c) (Proc.devRef .tc main_v12) = _
  generalize W4 m ρ c = V
  dsimp only [hostOps1_2]
  after_results
  rfl

theorem v13_W5 (c : Dev nD) :
    W5 m ρ c (Proc.devRef .tc main_v13) = KT.b11Of (F := Ideal) (W4 m ρ c (Proc.devRef .tc main_arg4)) := by
  show StableHlo.after hostOps1_2 (W4 m ρ c) (Proc.devRef .tc main_v13) = _
  generalize W4 m ρ c = V
  dsimp only [hostOps1_2]
  after_results
  rfl

theorem v5_W5 (c : Dev nD) : W5 m ρ c (Proc.devRef .tc main_v5) = W4 m ρ c (Proc.devRef .tc main_v5) := by
  show StableHlo.after hostOps1_2 _ (Proc.devRef .tc main_v5) = _
  carry_host hostOps1_2

theorem v6_W5 (c : Dev nD) : W5 m ρ c (Proc.devRef .tc main_v6) = W4 m ρ c (Proc.devRef .tc main_v6) := by
  show StableHlo.after hostOps1_2 _ (Proc.devRef .tc main_v6) = _
  carry_host hostOps1_2

theorem v3_W5 (c : Dev nD) : W5 m ρ c (Proc.devRef .tc main_v3) = W4 m ρ c (Proc.devRef .tc main_v3) := by
  show StableHlo.after hostOps1_2 _ (Proc.devRef .tc main_v3) = _
  carry_host hostOps1_2

theorem v4_1_W5 (c : Dev nD) : W5 m ρ c (Proc.devRef .tc main_v4_1) = W4 m ρ c (Proc.devRef .tc main_v4_1) := by
  show StableHlo.after hostOps1_2 _ (Proc.devRef .tc main_v4_1) = _
  carry_host hostOps1_2

theorem arg6_W5 (c : Dev nD) : W5 m ρ c (Proc.devRef .tc main_arg6) = W4 m ρ c (Proc.devRef .tc main_arg6) := by
  show StableHlo.after hostOps1_2 _ (Proc.devRef .tc main_arg6) = _
  carry_host hostOps1_2

/-! ## At region 1's exit -/

/-- At region 1's exit: the numerators, the source rows, the destination indices, the residual projection, the bias. -/
theorem state_W6 (c : Dev nD) :
    W6 m ρ c (Proc.devRef .tc main_v14)
        = KT.numOf (m ((c : Thread nD τ).loc main_arg0)) (m ((c : Thread nD τ).loc main_arg1)) (m ((c : Thread nD τ).loc main_arg2))
            (m ((c : Thread nD τ).loc main_arg3)) (m ((c : Thread nD τ).loc main_arg4))
    ∧ W6 m ρ c (Proc.devRef .tc main_v6)
        = KT.hjOf (m ((c : Thread nD τ).loc main_arg0)) (m ((c : Thread nD τ).loc main_arg1)) (m ((c : Thread nD τ).loc main_arg2))
    ∧ W6 m ρ c (Proc.devRef .tc main_v3) = KT.dstOf (m ((c : Thread nD τ).loc main_arg1))
    ∧ W6 m ρ c (Proc.devRef .tc main_v4_1) = Cert.Spec.proj (m ((c : Thread nD τ).loc main_arg0)) (m ((c : Thread nD τ).loc main_arg5))
    ∧ W6 m ρ c (Proc.devRef .tc main_arg6) = m ((c : Thread nD τ).loc main_arg6) := by
  have hv5 : W5 m ρ c (Proc.devRef .tc main_v5)
      = KT.hiOf (m ((c : Thread nD τ).loc main_arg0)) (m ((c : Thread nD τ).loc main_arg1)) (m ((c : Thread nD τ).loc main_arg2)) := by
    rw [v5_W5, v5_W4, v5_W3, v4_0_W2, v3_W2]; rfl
  have hv6 : W5 m ρ c (Proc.devRef .tc main_v6)
      = KT.hjOf (m ((c : Thread nD τ).loc main_arg0)) (m ((c : Thread nD τ).loc main_arg1)) (m ((c : Thread nD τ).loc main_arg2)) := by
    rw [v6_W5, v6_W4, v4_0_W3, v1_W3, v4_0_W2, v1_W2]; rfl
  have hv9 : W5 m ρ c (Proc.devRef .tc main_v9) = KT.wiOf (F := Ideal) (m ((c : Thread nD τ).loc main_arg3)) := by
    rw [v9_W5, arg3_W4, arg3_W3, arg3_W2]
  have hv12 : W5 m ρ c (Proc.devRef .tc main_v12) = KT.wjOf (F := Ideal) (m ((c : Thread nD τ).loc main_arg3)) := by
    rw [v12_W5, arg3_W4, arg3_W3, arg3_W2]
  have hv13 : W5 m ρ c (Proc.devRef .tc main_v13) = KT.b11Of (F := Ideal) (m ((c : Thread nD τ).loc main_arg4)) := by
    rw [v13_W5, arg4_W4, arg4_W3, arg4_W2]
  refine ⟨?_, ?_, ?_, ?_, ?_⟩
  · refine (W6_arr m ρ c 5).trans ((RV.final1_5 (V5 m ρ) c).trans ?_)
    show Cert.Spec.score (W5 m ρ c (Proc.devRef .tc main_v5)) (W5 m ρ c (Proc.devRef .tc main_v6))
      (W5 m ρ c (Proc.devRef .tc main_v9)) (W5 m ρ c (Proc.devRef .tc main_v12)) (W5 m ρ c (Proc.devRef .tc main_v13)) = _
    rw [hv5, hv6, hv9, hv12, hv13]; rfl
  · exact ((W6_arr m ρ c 1).trans (((dat1 (V5 m ρ) c).arrAt_in 1 rfl _).trans (A_eq1 (V5 m ρ) c 1))).trans hv6
  · rw [W6_of_ne m ρ c main_v3 (by decide), v3_W5, v3_W4, v3_W3, v3_W2]
  · rw [W6_of_ne m ρ c main_v4_1 (by decide), v4_1_W5, v4_1_W4, v4_1_W3, v4_1_W2]
  · rw [W6_of_ne m ρ c main_arg6 (by decide), arg6_W5, arg6_W4, arg6_W3, arg6_W2]

end Cert.KernelIdeal.KV

end
-- ==== Proof.Region2.lean ====
/-
  Region 2 (the weighted source rows). Each of its 250 grid points loads 5000 rows of the source features
  and of the coefficient column and stores their row-wise product.
-/
import proofs.«419194_j39496519254635_1_alg».proof.Proof.Gen.KernelIdeal.Frame
import proofs.«419194_j39496519254635_1_alg».proof.Proof.SpecPointwise
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RV

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Region2

theorem hz : (![0, 0] : Fin 2 → Nat) = fun _ => 0 := funext fun a => by fin_cases a <;> rfl

/-- The three windows' blocks at point t all sit at block row t, block column 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The payload at (p, q): the row's entry times the row's coefficient. -/
theorem pay2_apply (x0 : Vec Ideal S5000x64 .f32) (x1 : Vec Ideal S5000x1 .f32) (p : Fin 5000) (q : Fin 64) :
    k2_pay1 x0 x1 (ix2 p q) = x0 (ix2 p q) * x1 (ix2 p 0) := by
  unfold k2_pay1
  simp only [shapeCast_self]
  rw [mulf_apply]
  congr 1
  refine broadcastTo_apply _ _ _ (ix2 p 0) fun a => ?_
  match a with
  | ⟨0, _⟩ => exact (if_neg (by decide : ¬ ((5000 : Nat) = 1))).symm
  | ⟨1, _⟩ => exact (if_pos rfl).symm

/-- Entry (p, q) of the source-feature block at point t is the array's entry at row 5000 t + p, column q. -/
theorem iblk2_0_apply (c : Dev nD) (t : Fin cfg2.N) (p : Fin 5000) (q : Fin 64) (k : S1250000x64.Idx)
    (hk0 : (k 0).val = 5000 * t.val + p.val) (hk1 : (k 1).val = q.val) :
    iblk2 V c 0 t (ix2 p q) = V c main_v6 k := by
  obtain ⟨e0, e1, -, -, -, -⟩ := idx2 t
  unfold iblk2
  rw [View.read_apply]
  show V c main_v6 _ = V c main_v6 _
  congr 1
  funext a
  apply Fin.ext
  match a with
  | ⟨0, _⟩ => show win2_0.index t (0 : Fin 2) * 5000 + 1 * p.val = (k 0).val; omega
  | ⟨1, _⟩ => show win2_0.index t (1 : Fin 2) * 64 + 1 * q.val = (k 1).val; omega

/-- Entry (p, 0) of the coefficient block at point t is the column's entry at row 5000 t + p. -/
theorem iblk2_1_apply (c : Dev nD) (t : Fin cfg2.N) (p : Fin 5000) (k : S1250000x1.Idx)
    (hk0 : (k 0).val = 5000 * t.val + p.val) :
    iblk2 V c 1 t (ix2 p 0) = V c main_v21 k := by
  obtain ⟨-, -, e2, e3, -, -⟩ := idx2 t
  unfold iblk2
  rw [View.read_apply]
  show V c main_v21 _ = V c main_v21 _
  congr 1
  funext a
  apply Fin.ext
  match a with
  | ⟨0, _⟩ => show win2_1.index t (0 : Fin 2) * 5000 + 1 * p.val = (k 0).val; omega
  | ⟨1, _⟩ => show win2_1.index t (1 : Fin 2) * 1 + 1 * 0 = (k 1).val; have hk : (k 1).val < 1 := (k 1).isLt; omega

/-- The scaled rows at an index, from their two factors. -/
theorem weighted_apply (hj : FVec Ideal S1250000x64 .f32) (alpha : FVec Ideal S1250000x1 .f32) (i : S1250000x64.Idx) (a b : Ideal .f32)
    (ha : a = hj i) (hb : b = alpha (ix2 (i 0) 0)) : a * b = Cert.Spec.weighted hj alpha i := by
  subst ha hb; rfl

/-- What point t writes back is block t of the scaled rows. -/
theorem flushed2_eq (c : Dev nD) (t : Fin cfg2.N) :
    (dat2 V c).flushed 2 t = ((cfg2.win 2).blk t).view.read (Elt Ideal) (Cert.Spec.weighted (V c main_v6) (V c main_v21)) := by
  show (cfg2.win 2).cut (grid2.coords t) ((dat2 V c).after 2 t) = _
  rw [after2_2]
  unfold out2_2
  rw [View.canon_unit_zero hz]
  simp only [View.ld_unit_zero (S := S5000x64) hz, View.ld_unit_zero (S := S5000x1) hz]
  obtain ⟨-, -, -, -, e4, e5⟩ := idx2 t
  funext j
  obtain ⟨p, q, rfl⟩ : ∃ (p : Fin 5000) (q : Fin 64), j = ix2 p q := ⟨j 0, j 1, eq_ix2 j⟩
  show k2_pay1 (iblk2 V c 0 t) (iblk2 V c 1 t) (ix2 p q) = Cert.Spec.weighted (V c main_v6) (V c main_v21) (((cfg2.win 2).blk t).view.emb (ix2 p q))
  rw [pay2_apply]
  refine weighted_apply _ _ _ _ _ (iblk2_0_apply V c t p q _ ?_ ?_) (iblk2_1_apply V c t p _ ?_)
  · show win2_2.index t (0 : Fin 2) * 5000 + 1 * p.val = _; omega
  · show win2_2.index t (1 : Fin 2) * 64 + 1 * q.val = _; omega
  · show win2_2.index t (0 : Fin 2) * 5000 + 1 * p.val = _; omega

/-- An index of the output array is in point t's block iff each coordinate is in the block's range on its axis. -/
theorem mem_blk2 (t : Fin cfg2.N) (i : S1250000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v22).slice (win2_2.rect t)).set ↔ _
  rw [View.set_slice_whole, Rect.mem_set_unit]
  exact Iff.rfl

/-- Row r of the output array lies in the block of point r / 5000. -/
theorem cover2 (i : S1250000x64.Idx) : ∃ t : Fin cfg2.N, (cfg2.win 2).flush t = true ∧ i ∈ ((cfg2.win 2).blk t).view.set := by
  have hi0 : (i 0).val < 1250000 := (i 0).isLt
  have hi1 : (i 1).val < 64 := (i 1).isLt
  have hN : cfg2.N = 250 := N_2
  refine ⟨⟨(i 0).val / 5000, by omega⟩, flush2_2 _, ?_⟩
  obtain ⟨-, -, -, -, e4, e5⟩ := idx2 ⟨(i 0).val / 5000, by omega⟩
  rw [mem_blk2]
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ _ ∧ _ < (i 0).val / 5000 * 5000 + 5000; omega
  | ⟨1, _⟩ => show win2_2.index _ (1 : Fin 2) * 64 ≤ (i 1).val ∧ (i 1).val < win2_2.index _ (1 : Fin 2) * 64 + 64; rw [e5]; omega

end Region2

/-- After region 2 its output array is the source rows scaled by the coefficient column. -/
theorem final2_2 (c : Dev nD) : (dat2 V c).arrAt 2 cfg2.N = Cert.Spec.weighted (V c main_v6) (V c main_v21) :=
  (dat2 V c).arrAt_eq_of_cover 2 (Cert.Spec.weighted (V c main_v6) (V c main_v21)) (fun t _ => Region2.flushed2_eq V c t) Region2.cover2

end Cert.KernelIdeal.RV

end
-- ==== Proof.Region3.lean ====
/-
  Region 3 (the final combination). Each of its 20 grid points loads 5000 rows of the aggregate and of the
  residual projection and the bias row, and stores their sum.
-/
import proofs.«419194_j39496519254635_1_alg».proof.Proof.Gen.KernelIdeal.Frame
import proofs.«419194_j39496519254635_1_alg».proof.Proof.SpecPointwise
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RV

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Region3

theorem hz : (![0, 0] : Fin 2 → Nat) = fun _ => 0 := funext fun a => by fin_cases a <;> rfl

/-- The row-tiled windows' blocks at point t sit at block row t, block column 0; the bias row is its one block. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The payload at (p, q): the two entries added, plus the bias row's entry of column q. -/
theorem pay3_apply (x0 x1 : Vec Ideal S5000x64 .f32) (x2 : Vec Ideal S1x64 .f32) (p : Fin 5000) (q : Fin 64) :
    k3_pay1 x0 x1 x2 (ix2 p q) = x0 (ix2 p q) + x1 (ix2 p q) + x2 (ix2 0 q) := by
  unfold k3_pay1
  simp only [shapeCast_self]
  rw [addf_apply, addf_apply]
  congr 1
  refine broadcastTo_apply _ _ _ (ix2 0 q) fun a => ?_
  match a with
  | ⟨0, _⟩ => exact (if_pos rfl).symm
  | ⟨1, _⟩ => exact (if_neg (by decide : ¬ ((64 : Nat) = 1))).symm

/-- Entry (p, q) of the aggregate block at point t is the array's entry at row 5000 t + p, column q. -/
theorem iblk3_0_apply (c : Dev nD) (t : Fin cfg3.N) (p : Fin 5000) (q : Fin 64) (k : S100000x64.Idx)
    (hk0 : (k 0).val = 5000 * t.val + p.val) (hk1 : (k 1).val = q.val) :
    iblk3 V c 0 t (ix2 p q) = V c main_v25 k := by
  obtain ⟨e0, e1, -, -, -, -, -, -⟩ := idx3 t
  unfold iblk3
  rw [View.read_apply]
  show V c main_v25 _ = V c main_v25 _
  congr 1
  funext a
  apply Fin.ext
  match a with
  | ⟨0, _⟩ => show win3_0.index t (0 : Fin 2) * 5000 + 1 * p.val = (k 0).val; omega
  | ⟨1, _⟩ => show win3_0.index t (1 : Fin 2) * 64 + 1 * q.val = (k 1).val; omega

/-- Entry (p, q) of the residual block at point t is the array's entry at row 5000 t + p, column q. -/
theorem iblk3_1_apply (c : Dev nD) (t : Fin cfg3.N) (p : Fin 5000) (q : Fin 64) (k : S100000x64.Idx)
    (hk0 : (k 0).val = 5000 * t.val + p.val) (hk1 : (k 1).val = q.val) :
    iblk3 V c 1 t (ix2 p q) = V c main_v4_1 k := by
  obtain ⟨-, -, e2, e3, -, -, -, -⟩ := idx3 t
  unfold iblk3
  rw [View.read_apply]
  show V c main_v4_1 _ = V c main_v4_1 _
  congr 1
  funext a
  apply Fin.ext
  match a with
  | ⟨0, _⟩ => show win3_1.index t (0 : Fin 2) * 5000 + 1 * p.val = (k 0).val; omega
  | ⟨1, _⟩ => show win3_1.index t (1 : Fin 2) * 64 + 1 * q.val = (k 1).val; omega

/-- Entry (0, q) of the bias block at any point is the bias row's entry of column q. -/
theorem iblk3_2_apply (c : Dev nD) (t : Fin cfg3.N) (q : Fin 64) (k : S1x64.Idx)
    (hk1 : (k 1).val = q.val) :
    iblk3 V c 2 t (ix2 0 q) = V c main_v26 k := by
  obtain ⟨-, -, -, -, e4, e5, -, -⟩ := idx3 t
  unfold iblk3
  rw [View.read_apply]
  show V c main_v26 _ = V c main_v26 _
  congr 1
  funext a
  apply Fin.ext
  match a with
  | ⟨0, _⟩ => show win3_2.index t (0 : Fin 2) * 1 + 1 * 0 = (k 0).val; have hk : (k 0).val < 1 := (k 0).isLt; omega
  | ⟨1, _⟩ => show win3_2.index t (1 : Fin 2) * 64 + 1 * q.val = (k 1).val; omega

/-- The combination at an index, from its three terms. -/
theorem combine_apply (agg res : FVec Ideal S100000x64 .f32) (bias : FVec Ideal S1x64 .f32) (i : S100000x64.Idx) (a b d : Ideal .f32)
    (ha : a = agg i) (hb : b = res i) (hd : d = bias (ix2 0 (i 1))) : a + b + d = Cert.Spec.combine agg res bias i := by
  subst ha hb hd; rfl

/-- What point t writes back is block t of the combination. -/
theorem flushed3_eq (c : Dev nD) (t : Fin cfg3.N) :
    (dat3 V c).flushed 3 t = ((cfg3.win 3).blk t).view.read (Elt Ideal) (Cert.Spec.combine (V c main_v25) (V c main_v4_1) (V c main_v26)) := by
  show (cfg3.win 3).cut (grid3.coords t) ((dat3 V c).after 3 t) = _
  rw [after3_3]
  unfold out3_3
  rw [View.canon_unit_zero hz]
  simp only [View.ld_unit_zero (S := S5000x64) hz, View.ld_unit_zero (S := S1x64) hz]
  obtain ⟨-, -, -, -, -, -, e6, e7⟩ := idx3 t
  funext j
  obtain ⟨p, q, rfl⟩ : ∃ (p : Fin 5000) (q : Fin 64), j = ix2 p q := ⟨j 0, j 1, eq_ix2 j⟩
  show k3_pay1 (iblk3 V c 0 t) (iblk3 V c 1 t) (iblk3 V c 2 t) (ix2 p q) = Cert.Spec.combine (V c main_v25) (V c main_v4_1) (V c main_v26) (((cfg3.win 3).blk t).view.emb (ix2 p q))
  rw [pay3_apply]
  refine combine_apply _ _ _ _ _ _ _ (iblk3_0_apply V c t p q _ ?_ ?_) (iblk3_1_apply V c t p q _ ?_ ?_) (iblk3_2_apply V c t q _ ?_)
  · show win3_3.index t (0 : Fin 2) * 5000 + 1 * p.val = _; omega
  · show win3_3.index t (1 : Fin 2) * 64 + 1 * q.val = _; omega
  · show win3_3.index t (0 : Fin 2) * 5000 + 1 * p.val = _; omega
  · show win3_3.index t (1 : Fin 2) * 64 + 1 * q.val = _; omega
  · show win3_3.index t (1 : Fin 2) * 64 + 1 * q.val = _; omega

/-- An index of the output array is in point t's block iff each coordinate is in the block's range on its axis. -/
theorem mem_blk3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v27).slice (win3_3.rect t)).set ↔ _
  rw [View.set_slice_whole, Rect.mem_set_unit]
  exact Iff.rfl

/-- Row r of the output array lies in the block of point r / 5000. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  refine ⟨⟨(i 0).val / 5000, by omega⟩, flush3_3 _, ?_⟩
  obtain ⟨-, -, -, -, -, -, e6, e7⟩ := idx3 ⟨(i 0).val / 5000, by omega⟩
  rw [mem_blk3]
  intro a
  match a with
  | ⟨0, _⟩ => show win3_3.index _ (0 : Fin 2) * 5000 ≤ (i 0).val ∧ (i 0).val < win3_3.index _ (0 : Fin 2) * 5000 + 5000; rw [e6]; show (i 0).val / 5000 * 5000 ≤ _ ∧ _ < (i 0).val / 5000 * 5000 + 5000; omega
  | ⟨1, _⟩ => show win3_3.index _ (1 : Fin 2) * 64 ≤ (i 1).val ∧ (i 1).val < win3_3.index _ (1 : Fin 2) * 64 + 64; rw [e7]; omega

end Region3

/-- After region 3 its output array is aggregate + residual + bias row. -/
theorem final3_3 (c : Dev nD) : (dat3 V c).arrAt 3 cfg3.N = Cert.Spec.combine (V c main_v25) (V c main_v4_1) (V c main_v26) :=
  (dat3 V c).arrAt_eq_of_cover 3 (Cert.Spec.combine (V c main_v25) (V c main_v4_1) (V c main_v26)) (fun t _ => Region3.flushed3_eq V c t) Region3.cover3

end Cert.KernelIdeal.RV

end
-- ==== Proof.KernelValue.lean ====
/-
  The kernel program's result buffer after the whole run, read back through every boundary of @main
  (host stretch, region, host stretch, …) to the launch memory: it holds `kernelOut` of the seven arguments.
-/
import proofs.«419194_j39496519254635_1_alg».proof.Proof.Gen.KernelIdeal.Frame
import proofs.«419194_j39496519254635_1_alg».proof.Proof.KTerm
import proofs.«419194_j39496519254635_1_alg».proof.Proof.KernelValueA
import proofs.«419194_j39496519254635_1_alg».proof.Proof.Region2
import proofs.«419194_j39496519254635_1_alg».proof.Proof.Region3
import Idealize.ShloMosaic.Lib.StableHlo.Run

set_option maxRecDepth 16384

noncomputable section

namespace Cert.KernelIdeal.KV

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- A buffer that no operation of a host stretch writes keeps its contents across the stretch. -/
macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ### The destination indices, carried from boundary 6 to boundary 10 -/

theorem W7_v3 (c : Dev nD) : W7 m ρ c (Proc.devRef .tc main_v3) = W6 m ρ c (Proc.devRef .tc main_v3) := by
  host_keep hostOps2
theorem W8_v3 (c : Dev nD) : W8 m ρ c (Proc.devRef .tc main_v3) = W7 m ρ c (Proc.devRef .tc main_v3) := by
  host_keep hostOps2_1
theorem W9_v3 (c : Dev nD) : W9 m ρ c (Proc.devRef .tc main_v3) = W8 m ρ c (Proc.devRef .tc main_v3) := by
  host_keep hostOps2_2
theorem W10_v3 (c : Dev nD) : W10 m ρ c (Proc.devRef .tc main_v3) = W9 m ρ c (Proc.devRef .tc main_v3) :=
  W10_of_ne m ρ c main_v3 (by decide)

/-! ### The numerator column, carried from boundary 6 to boundary 8 -/

theorem W7_v14 (c : Dev nD) : W7 m ρ c (Proc.devRef .tc main_v14) = W6 m ρ c (Proc.devRef .tc main_v14) := by
  host_keep hostOps2
theorem W8_v14 (c : Dev nD) : W8 m ρ c (Proc.devRef .tc main_v14) = W7 m ρ c (Proc.devRef .tc main_v14) := by
  host_keep hostOps2_1

/-! ### The source rows, carried from boundary 6 to boundary 9 -/

theorem W7_v6 (c : Dev nD) : W7 m ρ c (Proc.devRef .tc main_v6) = W6 m ρ c (Proc.devRef .tc main_v6) := by
  host_keep hostOps2
theorem W8_v6 (c : Dev nD) : W8 m ρ c (Proc.devRef .tc main_v6) = W7 m ρ c (Proc.devRef .tc main_v6) := by
  host_keep hostOps2_1
theorem W9_v6 (c : Dev nD) : W9 m ρ c (Proc.devRef .tc main_v6) = W8 m ρ c (Proc.devRef .tc main_v6) := by
  host_keep hostOps2_2

/-! ### The residual projection, carried from boundary 6 to boundary 11 -/

theorem W7_v4_1 (c : Dev nD) : W7 m ρ c (Proc.devRef .tc main_v4_1) = W6 m ρ c (Proc.devRef .tc main_v4_1) := by
  host_keep hostOps2
theorem W8_v4_1 (c : Dev nD) : W8 m ρ c (Proc.devRef .tc main_v4_1) = W7 m ρ c (Proc.devRef .tc main_v4_1) := by
  host_keep hostOps2_1
theorem W9_v4_1 (c : Dev nD) : W9 m ρ c (Proc.devRef .tc main_v4_1) = W8 m ρ c (Proc.devRef .tc main_v4_1) := by
  host_keep hostOps2_2
theorem W10_v4_1 (c : Dev nD) : W10 m ρ c (Proc.devRef .tc main_v4_1) = W9 m ρ c (Proc.devRef .tc main_v4_1) :=
  W10_of_ne m ρ c main_v4_1 (by decide)
theorem W11_v4_1 (c : Dev nD) : W11 m ρ c (Proc.devRef .tc main_v4_1) = W10 m ρ c (Proc.devRef .tc main_v4_1) := by
  host_keep hostOps3

/-! ### The output bias, carried from boundary 6 to boundary 10 -/

theorem W7_arg6 (c : Dev nD) : W7 m ρ c (Proc.devRef .tc main_arg6) = W6 m ρ c (Proc.devRef .tc main_arg6) := by
  host_keep hostOps2
theorem W8_arg6 (c : Dev nD) : W8 m ρ c (Proc.devRef .tc main_arg6) = W7 m ρ c (Proc.devRef .tc main_arg6) := by
  host_keep hostOps2_1
theorem W9_arg6 (c : Dev nD) : W9 m ρ c (Proc.devRef .tc main_arg6) = W8 m ρ c (Proc.devRef .tc main_arg6) := by
  host_keep hostOps2_2
theorem W10_arg6 (c : Dev nD) : W10 m ρ c (Proc.devRef .tc main_arg6) = W9 m ρ c (Proc.devRef .tc main_arg6) :=
  W10_of_ne m ρ c main_arg6 (by decide)

/-! ### The buffers each stretch computes, from any contents at its entry -/

attribute [local irreducible] Host.gather Host.reduce Host.scatterAdd

/-- The first stretch leaves the per-destination sums of the numerators. -/
theorem hostOps2_v17 (V : Valuation τ sig (Elt Ideal)) :
    StableHlo.after hostOps2 V (Proc.devRef .tc main_v17)
      = KT.denomOf (F := Ideal) (V (Proc.devRef .tc main_v14)) (V (Proc.devRef .tc main_v3)) := by
  dsimp only [hostOps2]
  after_results
  rfl

/-! ### The guarded gather's 23 operations, in three runs: the wrapped index column, its in-range mask,
    the gather and the selection -/

/-- Operations 1–8: the index with 100000 added where negative, as a column. -/
abbrev takeOpsA : List (HloOp τ sig (Elt Ideal)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S1250000, .i32⟩) (broadcastInDim S1250000 ![] bcast_S_S1250000),
    StableHlo.TRef.binary (.of main_v3 : StableHlo.TRef sig ⟨S1250000, .i32⟩) (.of main_call2_v0 : StableHlo.TRef sig ⟨S1250000, .i32⟩) (.of main_call2_v1 : StableHlo.TRef sig ⟨S1250000, .i1⟩) (cmpi .slt),
    StableHlo.TRef.nullary (.of main_call2_c_0 : StableHlo.TRef sig ⟨S_, .i32⟩) (constantI S_ 32 100000#32),
    StableHlo.TRef.unary (.of main_call2_c_0 : StableHlo.TRef sig ⟨S_, .i32⟩) (.of main_call2_v2 : StableHlo.TRef sig ⟨S1250000, .i32⟩) (broadcastInDim S1250000 ![] bcast_S_S1250000),
    StableHlo.TRef.binary (.of main_v3 : StableHlo.TRef sig ⟨S1250000, .i32⟩) (.of main_call2_v2 : StableHlo.TRef sig ⟨S1250000, .i32⟩) (.of main_call2_v3 : StableHlo.TRef sig ⟨S1250000, .i32⟩) addi,
    StableHlo.TRef.ternary (.of main_call2_v1 : StableHlo.TRef sig ⟨S1250000, .i1⟩) (.of main_call2_v3 : StableHlo.TRef sig ⟨S1250000, .i32⟩) (.of main_v3 : StableHlo.TRef sig ⟨S1250000, .i32⟩) (.of main_call2_v4 : StableHlo.TRef sig ⟨S1250000, .i32⟩) select,
    StableHlo.TRef.unary main_call2_call0.v0 (.of main_call2_v5 : StableHlo.TRef sig ⟨S1250000x1, .i32⟩) (broadcastInDim S1250000x1 ![0] bcast_S1250000_S1250000x1_0) ]
/-- Operations 9–18: is the wrapped index between 0 and 99999? -/
abbrev takeOpsB : List (HloOp τ sig (Elt Ideal)) :=
  [ StableHlo.TRef.nullary (.of main_call2_c_1 : StableHlo.TRef sig ⟨S1, .i32⟩) (constantI S1 32 99999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S1250000x1, .i32⟩) (broadcastInDim S1250000x1 ![] bcast_S_S1250000x1),
    StableHlo.TRef.binary (.of main_call2_v5 : StableHlo.TRef sig ⟨S1250000x1, .i32⟩) (.of main_call2_v6 : StableHlo.TRef sig ⟨S1250000x1, .i32⟩) (.of main_call2_v7 : StableHlo.TRef sig ⟨S1250000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S1250000x1, .i32⟩) (broadcastInDim S1250000x1 ![0, 1] bcast_S1x1_S1250000x1_0_1),
    StableHlo.TRef.binary (.of main_call2_v5 : StableHlo.TRef sig ⟨S1250000x1, .i32⟩) (.of main_call2_v9 : StableHlo.TRef sig ⟨S1250000x1, .i32⟩) (.of main_call2_v10 : StableHlo.TRef sig ⟨S1250000x1, .i1⟩) (cmpi .sle),
    StableHlo.TRef.binary (.of main_call2_v7 : StableHlo.TRef sig ⟨S1250000x1, .i1⟩) (.of main_call2_v10 : StableHlo.TRef sig ⟨S1250000x1, .i1⟩) (.of main_call2_v11 : StableHlo.TRef sig ⟨S1250000x1, .i1⟩) andi,
    StableHlo.TRef.nullary (.of main_call2_c_3 : StableHlo.TRef sig ⟨S_, .i1⟩) (constantI S_ 1 1#1),
    StableHlo.TRef.binary (.of main_call2_v11 : StableHlo.TRef sig ⟨S1250000x1, .i1⟩) (.of main_call2_c_3 : StableHlo.TRef sig ⟨S_, .i1⟩) (.of main_call2_v12 : StableHlo.TRef sig ⟨S1250000, .i1⟩) (fun x v => Host.reduce IntOp.andi x v reducesTo_S1250000x1_S1250000_d1 h_S_) ]
/-- Operations 19–23: the gather, the mask as a column, the NaN word, the selection. -/
abbrev takeOpsC : List (HloOp τ sig (Elt Ideal)) :=
  [ StableHlo.TRef.binary (.of main_v17 : StableHlo.TRef sig ⟨S100000x1, .f32⟩) (.of main_call2_v5 : StableHlo.TRef sig ⟨S1250000x1, .i32⟩) (.of main_call2_v13 : StableHlo.TRef sig ⟨S1250000x1, .f32⟩) (fun x i => Host.gather gather_S100000x1_S1250000x1_S1250000x1_1_0_n_n_0_1_11 x i),
    StableHlo.TRef.unary (.of main_call2_v12 : StableHlo.TRef sig ⟨S1250000, .i1⟩) (.of main_call2_v14 : StableHlo.TRef sig ⟨S1250000x1, .i1⟩) (broadcastInDim S1250000x1 ![0] bcast_S1250000_S1250000x1_0),
    StableHlo.TRef.nullary (.of main_call2_cst : StableHlo.TRef sig ⟨S_, .f32⟩) (constant (F := Ideal) S_ .f32 0x7FC00000#32),
    StableHlo.TRef.unary (.of main_call2_cst : StableHlo.TRef sig ⟨S_, .f32⟩) (.of main_call2_v15 : StableHlo.TRef sig ⟨S1250000x1, .f32⟩) (broadcastInDim S1250000x1 ![] bcast_S_S1250000x1),
    StableHlo.TRef.ternary (.of main_call2_v14 : StableHlo.TRef sig ⟨S1250000x1, .i1⟩) (.of main_call2_v13 : StableHlo.TRef sig ⟨S1250000x1, .f32⟩) (.of main_call2_v15 : StableHlo.TRef sig ⟨S1250000x1, .f32⟩) (.of main_v18 : StableHlo.TRef sig ⟨S1250000x1, .f32⟩) select ]

theorem hostOps2_1_split : (hostOps2_1 : List (HloOp τ sig (Elt Ideal))) = takeOpsA ++ (takeOpsB ++ takeOpsC) := rfl

/-- The in-range mask of a wrapped index column. -/
def maskOf (w : IVec S1250000x1 32) : IVec S1250000 1 :=
  Host.reduce IntOp.andi
    (andi (cmpi .sge w (broadcastInDim S1250000x1 ![] bcast_S_S1250000x1 (constantI S_ 32 0#32)))
      (cmpi .sle w (broadcastInDim S1250000x1 ![0, 1] bcast_S1x1_S1250000x1_0_1
        (broadcastInDim S1x1 ![1] bcast_S1_S1x1_1 (constantI S1 32 99999#32)))))
    (constantI S_ 1 1#1) reducesTo_S1250000x1_S1250000_d1 h_S_

theorem takeA_v5 (V : Valuation τ sig (Elt Ideal)) :
    StableHlo.after takeOpsA V (Proc.devRef .tc main_call2_v5) = KT.wrapIdx (V (Proc.devRef .tc main_v3)) := by
  dsimp only [takeOpsA]
  after_results
  rfl
theorem takeA_v17 (V : Valuation τ sig (Elt Ideal)) :
    StableHlo.after takeOpsA V (Proc.devRef .tc main_v17) = V (Proc.devRef .tc main_v17) := by
  host_keep takeOpsA

theorem takeB_v12 (V : Valuation τ sig (Elt Ideal)) :
    StableHlo.after takeOpsB V (Proc.devRef .tc main_call2_v12) = maskOf (V (Proc.devRef .tc main_call2_v5)) := by
  dsimp only [takeOpsB]
  after_results
  rfl
theorem takeB_v5 (V : Valuation τ sig (Elt Ideal)) :
    StableHlo.after takeOpsB V (Proc.devRef .tc main_call2_v5) = V (Proc.devRef .tc main_call2_v5) := by
  host_keep takeOpsB
theorem takeB_v17 (V : Valuation τ sig (Elt Ideal)) :
    StableHlo.after takeOpsB V (Proc.devRef .tc main_v17) = V (Proc.devRef .tc main_v17) := by
  host_keep takeOpsB

theorem takeC_v18 (V : Valuation τ sig (Elt Ideal)) :
    StableHlo.after takeOpsC V (Proc.devRef .tc main_v18)
      = select (broadcastInDim S1250000x1 ![0] bcast_S1250000_S1250000x1_0 (V (Proc.devRef .tc main_call2_v12)))
          (Host.gather gather_S100000x1_S1250000x1_S1250000x1_1_0_n_n_0_1_11 (V (Proc.devRef .tc main_v17))
            (V (Proc.devRef .tc main_call2_v5)))
          (broadcastInDim S1250000x1 ![] bcast_S_S1250000x1 (constant (F := Ideal) S_ .f32 0x7FC00000#32)) := by
  dsimp only [takeOpsC]
  after_results
  rfl

theorem after_append' (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The second stretch leaves the sums gathered back at each edge's destination. -/
theorem hostOps2_1_v18 (V : Valuation τ sig (Elt Ideal)) :
    StableHlo.after hostOps2_1 V (Proc.devRef .tc main_v18)
      = KT.take1 (F := Ideal) (V (Proc.devRef .tc main_v17)) (V (Proc.devRef .tc main_v3)) := by
  rw [hostOps2_1_split, after_append', after_append', takeC_v18, takeB_v12, takeB_v5, takeB_v17, takeA_v5, takeA_v17]
  rfl

/-- The third stretch leaves the attention coefficients. -/
theorem hostOps2_2_v21 (V : Valuation τ sig (Elt Ideal)) :
    StableHlo.after hostOps2_2 V (Proc.devRef .tc main_v21)
      = KT.alphaOf (F := Ideal) (V (Proc.devRef .tc main_v14)) (V (Proc.devRef .tc main_v18)) := by
  dsimp only [hostOps2_2]
  after_results
  rfl

/-- The fourth stretch leaves the per-destination sums of the weighted rows. -/
theorem hostOps3_v25 (V : Valuation τ sig (Elt Ideal)) :
    StableHlo.after hostOps3 V (Proc.devRef .tc main_v25)
      = KT.aggOf (F := Ideal) (V (Proc.devRef .tc main_v22)) (V (Proc.devRef .tc main_v3)) := by
  dsimp only [hostOps3]
  after_results
  rfl

/-- The fourth stretch leaves the bias as a row. -/
theorem hostOps3_v26 (V : Valuation τ sig (Elt Ideal)) :
    StableHlo.after hostOps3 V (Proc.devRef .tc main_v26) = KT.biasRow (F := Ideal) (V (Proc.devRef .tc main_arg6)) := by
  dsimp only [hostOps3]
  after_results
  rfl

/-! ### The same at the run's boundaries -/

theorem W7_v17 (c : Dev nD) :
    W7 m ρ c (Proc.devRef .tc main_v17)
      = KT.denomOf (F := Ideal) (W6 m ρ c (Proc.devRef .tc main_v14)) (W6 m ρ c (Proc.devRef .tc main_v3)) :=
  hostOps2_v17 (W6 m ρ c)

theorem W8_v18 (c : Dev nD) :
    W8 m ρ c (Proc.devRef .tc main_v18)
      = KT.take1 (F := Ideal) (W7 m ρ c (Proc.devRef .tc main_v17)) (W7 m ρ c (Proc.devRef .tc main_v3)) :=
  hostOps2_1_v18 (W7 m ρ c)

theorem W9_v21 (c : Dev nD) :
    W9 m ρ c (Proc.devRef .tc main_v21)
      = KT.alphaOf (F := Ideal) (W8 m ρ c (Proc.devRef .tc main_v14)) (W8 m ρ c (Proc.devRef .tc main_v18)) :=
  hostOps2_2_v21 (W8 m ρ c)

/-- After region 2: the weighted source rows. -/
theorem W10_v22 (c : Dev nD) :
    W10 m ρ c (Proc.devRef .tc main_v22)
      = Cert.Spec.weighted (W9 m ρ c (Proc.devRef .tc main_v6)) (W9 m ρ c (Proc.devRef .tc main_v21)) :=
  (W10_arr m ρ c 2).trans (RV.final2_2 (V9 m ρ) c)

theorem W11_v25 (c : Dev nD) :
    W11 m ρ c (Proc.devRef .tc main_v25)
      = KT.aggOf (F := Ideal) (W10 m ρ c (Proc.devRef .tc main_v22)) (W10 m ρ c (Proc.devRef .tc main_v3)) :=
  hostOps3_v25 (W10 m ρ c)

theorem W11_v26 (c : Dev nD) :
    W11 m ρ c (Proc.devRef .tc main_v26) = KT.biasRow (F := Ideal) (W10 m ρ c (Proc.devRef .tc main_arg6)) :=
  hostOps3_v26 (W10 m ρ c)

/-- After region 3: aggregate + residual + bias row. -/
theorem W12_v27 (c : Dev nD) :
    W12 m ρ c (Proc.devRef .tc main_v27)
      = Cert.Spec.combine (W11 m ρ c (Proc.devRef .tc main_v25)) (W11 m ρ c (Proc.devRef .tc main_v4_1))
          (W11 m ρ c (Proc.devRef .tc main_v26)) :=
  (W12_arr m ρ c 3).trans (RV.final3_3 (V11 m ρ) c)

/-! ### The result buffer at the last boundary -/

/-- The result buffer at the last boundary is the kernel program's function of the launch arguments. -/
theorem W12_out (c : Dev nD) :
    W12 m ρ c (Proc.devRef .tc main_v27)
      = KT.kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  obtain ⟨h14, h6, h3, h41, hb⟩ := state_W6 m ρ c
  unfold KT.kernelOut KT.alphaOut
  rw [W12_v27, W11_v25, W11_v26, W11_v4_1, W10_v22, W10_v3, W10_v4_1, W10_arg6,
    W9_v21, W9_v6, W9_v3, W9_v4_1, W9_arg6, W8_v18, W8_v14, W8_v6, W8_v3, W8_v4_1, W8_arg6,
    W7_v17, W7_v14, W7_v6, W7_v3, W7_v4_1, W7_arg6, h14, h6, h3, h41, hb]

end Cert.KernelIdeal.KV

end
-- ==== Proof.RTerm.lean ====
/-
  The reference program's host operations as pure functions of the values they read, composed into
  `refOut`, the reference's result as one function of its seven arguments: the projection, the two
  row gathers at wrapped indices, the concatenated rows against the 128 attention weights plus the
  bias, the leaky rectifier and exp, the per-destination sums, the coefficient, the weighted
  aggregate, and the residual projection plus the output bias.
-/
import proofs.«419194_j39496519254635_1_alg».proof.ReferenceIdeal

noncomputable section

namespace Cert.ReferenceIdeal.RT

open Idealize.ShloMosaic Cert.ReferenceIdeal

variable {F : FTy → Type} [FloatOps F] [Facts]
open Facts₀ Facts

/-- Row 0 of the edge table: the source node of each edge. -/
def srcOf (ei : IVec S2x1250000 32) : IVec S1250000 32 :=
  shapeCast S1250000 (extractStridedSlice S1x1250000 ![0, 0] ei slices_S2x1250000_S1x1250000_0_0) shapeCasts_S1x1250000_S1250000

/-- Row 1 of the edge table: the destination node of each edge. -/
def dstOf (ei : IVec S2x1250000 32) : IVec S1250000 32 :=
  shapeCast S1250000 (extractStridedSlice S1x1250000 ![1, 0] ei slices_S2x1250000_S1x1250000_1_0) shapeCasts_S1x1250000_S1250000

/-- An index with 100000 added where it is negative, as a column. -/
def wrapIdx (i : IVec S1250000 32) : IVec S1250000x1 32 :=
  broadcastInDim S1250000x1 ![0] bcast_S1250000_S1250000x1_0
    (select (cmpi .slt i (broadcastInDim S1250000 ![] bcast_S_S1250000 (constantI S_ 32 0#32)))
      (addi i (broadcastInDim S1250000 ![] bcast_S_S1250000 (constantI S_ 32 100000#32))) i)

/-- The projection x · w. -/
def projOf (x : FVec F S100000x128 .f32) (w : FVec F S128x64 .f32) : FVec F S100000x64 .f32 :=
  Host.dotGeneral dot_S100000x128_S128x64_S100000x64_1_0_0_1_n_n none x w

/-- Rows of a 64-wide table gathered at wrapped indices. -/
def gather64 (h : FVec F S100000x64 .f32) (i : IVec S1250000 32) : FVec F S1250000x64 .f32 :=
  Host.gather gather_S100000x64_S1250000x1_S1250000x64_1_0_n_n_0_1_164 h (wrapIdx i)

/-- Rows of a 1-wide table gathered at wrapped indices. -/
def gather1 (d : FVec F S100000x1 .f32) (i : IVec S1250000 32) : FVec F S1250000x1 .f32 :=
  Host.gather gather_S100000x1_S1250000x1_S1250000x1_1_0_n_n_0_1_11 d (wrapIdx i)

/-- The score column before the rectifier: [hi | hj] · wa + b. -/
def scoreOf (hi hj : FVec F S1250000x64 .f32) (wa : FVec F S128x1 .f32) (b : FVec F S1 .f32) : FVec F S1250000x1 .f32 :=
  addf (Host.dotGeneral dot_S1250000x128_S128x1_S1250000x1_1_0_0_1_n_n none
      (concatenate S1250000x128 1 [⟨S1250000x64, hi⟩, ⟨S1250000x64, hj⟩] concatenates_S1250000x64_S1250000x64_S1250000x128_d1) wa)
    (broadcastInDim S1250000x1 ![0, 1] bcast_S1x1_S1250000x1_0_1 (broadcastInDim S1x1 ![1] bcast_S1_S1x1_1 b))

/-- The numerator column: exp of the leaky-rectified score. -/
def numOfScore (s : FVec F S1250000x1 .f32) : FVec F S1250000x1 .f32 :=
  Host.exp (select (cmpf .oge s (broadcastInDim S1250000x1 ![] bcast_S_S1250000x1 (constant S_ .f32 0x00000000#32))) s
    (mulf (broadcastInDim S1250000x1 ![] bcast_S_S1250000x1 (id (constant S_ .f32 0x3E4CCCCD#32))) s))

/-- The per-destination sum of the numerators. -/
def denomOf (num : FVec F S1250000x1 .f32) (d : IVec S1250000 32) : FVec F S100000x1 .f32 :=
  Host.scatterAdd scatter_S100000x1_S1250000x1_S1250000x1_1_0_0_1
    (broadcastInDim S100000x1 ![] bcast_S_S100000x1 (constant S_ .f32 0x00000000#32))
    (broadcastInDim S1250000x1 ![0] bcast_S1250000_S1250000x1_0 d) num

/-- The attention coefficient: numerator over (gathered denominator + the f32 word of 1e-16). -/
def alphaOf (num deng : FVec F S1250000x1 .f32) : FVec F S1250000x1 .f32 :=
  Host.divf num (addf deng (broadcastInDim S1250000x1 ![] bcast_S_S1250000x1 (constant S_ .f32 0x24E69595#32)))

/-- The source rows scaled by the coefficient column. -/
def weightedOf (hj : FVec F S1250000x64 .f32) (alpha : FVec F S1250000x1 .f32) : FVec F S1250000x64 .f32 :=
  mulf hj (broadcastInDim S1250000x64 ![0, 1] bcast_S1250000x1_S1250000x64_0_1 alpha)

/-- The per-destination sum of the weighted rows. -/
def aggOf (wgt : FVec F S1250000x64 .f32) (d : IVec S1250000 32) : FVec F S100000x64 .f32 :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 d) wgt

/-- The aggregate plus the residual projection plus the broadcast bias. -/
def combineOf (agg res : FVec F S100000x64 .f32) (bias : FVec F S64 .f32) : FVec F S100000x64 .f32 :=
  addf (addf agg res) (broadcastInDim S100000x64 ![0, 1] bcast_S1x64_S100000x64_0_1 (broadcastInDim S1x64 ![1] bcast_S64_S1x64_1 bias))

/-- The gathered destination rows. -/
def hiOf (x : FVec F S100000x128 .f32) (ei : IVec S2x1250000 32) (wc : FVec F S128x64 .f32) : FVec F S1250000x64 .f32 :=
  gather64 (projOf x wc) (dstOf ei)

/-- The gathered source rows. -/
def hjOf (x : FVec F S100000x128 .f32) (ei : IVec S2x1250000 32) (wc : FVec F S128x64 .f32) : FVec F S1250000x64 .f32 :=
  gather64 (projOf x wc) (srcOf ei)

/-- The numerator column. -/
def numOf (x : FVec F S100000x128 .f32) (ei : IVec S2x1250000 32) (wc : FVec F S128x64 .f32) (wa : FVec F S128x1 .f32)
    (b : FVec F S1 .f32) : FVec F S1250000x1 .f32 :=
  numOfScore (scoreOf (hiOf x ei wc) (hjOf x ei wc) wa b)

/-- The attention coefficients. -/
def alphaOut (x : FVec F S100000x128 .f32) (ei : IVec S2x1250000 32) (wc : FVec F S128x64 .f32) (wa : FVec F S128x1 .f32)
    (b : FVec F S1 .f32) : FVec F S1250000x1 .f32 :=
  alphaOf (numOf x ei wc wa b) (gather1 (denomOf (numOf x ei wc wa b) (dstOf ei)) (dstOf ei))

/-- The reference program's result as one function of its seven arguments. -/
def refOut (x : FVec F S100000x128 .f32) (ei : IVec S2x1250000 32) (wc : FVec F S128x64 .f32) (wa : FVec F S128x1 .f32)
    (b : FVec F S1 .f32) (wr : FVec F S128x64 .f32) (bias : FVec F S64 .f32) : FVec F S100000x64 .f32 :=
  combineOf (aggOf (weightedOf (hjOf x ei wc) (alphaOut x ei wc wa b)) (dstOf ei)) (projOf x wr) bias

end Cert.ReferenceIdeal.RT

end
-- ==== Proof.RefRun.lean ====
/-
  The reference program's run read back: @main is one straight line of host operations (its two outlined
  functions unfolded at their calls), so every weakly fair execution terminates with the result buffer at
  `refOut` of the seven arguments and the arguments unchanged.
-/
import proofs.«419194_j39496519254635_1_alg».proof.ReferenceIdeal
import proofs.«419194_j39496519254635_1_alg».proof.Proof.Gen.ReferenceIdeal
import proofs.«419194_j39496519254635_1_alg».proof.Proof.RTerm
import Idealize.ShloMosaic.Lib.StableHlo.Run

noncomputable section

namespace Cert.ReferenceIdeal.Value

open Idealize.ShloMosaic Idealize.ShloMosaic.TcCoe Idealize.ShloMosaic.StableHlo Idealize.SL.Sem
open Cert.ReferenceIdeal

variable {F : FTy → Type} [FloatOps F] [Facts]
open Facts₀ Facts

/-- @main's operations in order, the call of the leaky rectifier unfolded where it stands: its six operations
    (the zero and its broadcast, the comparison, the slope converted and broadcast, the product) and then the
    selection its own callee makes, all over the call's buffers. -/
abbrev ops : List (HloOp τ sig (Elt F)) :=
  [ unary main_arg1 main_v0 ((extractStridedSlice S1x1250000 ![0, 0] · slices_S2x1250000_S1x1250000_0_0) : (⟨S2x1250000, .i32⟩ : BufTy).Contents (Elt F) → (⟨S1x1250000, .i32⟩ : BufTy).Contents (Elt F)),
    reshape main_v0 main_v1 rfl shapeCasts_S1x1250000_S1250000,
    unary main_arg1 main_v2 ((extractStridedSlice S1x1250000 ![1, 0] · slices_S2x1250000_S1x1250000_1_0) : (⟨S2x1250000, .i32⟩ : BufTy).Contents (Elt F) → (⟨S1x1250000, .i32⟩ : BufTy).Contents (Elt F)),
    reshape main_v2 main_v3 rfl shapeCasts_S1x1250000_S1250000,
    binary main_arg0 main_arg2 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c (constantI S_ 32 0#32),
    unary main_c main_v5 (broadcastInDim S1250000 ![] bcast_S_S1250000 : (⟨S_, .i32⟩ : BufTy).Contents (Elt F) → (⟨S1250000, .i32⟩ : BufTy).Contents (Elt F)),
    binary main_v3 main_v5 main_v6 (cmpi .slt : (⟨S1250000, .i32⟩ : BufTy).Contents (Elt F) → (⟨S1250000, .i32⟩ : BufTy).Contents (Elt F) → (⟨S1250000, .i1⟩ : BufTy).Contents (Elt F)),
    nullary main_c_0 (constantI S_ 32 100000#32),
    unary main_c_0 main_v7 (broadcastInDim S1250000 ![] bcast_S_S1250000 : (⟨S_, .i32⟩ : BufTy).Contents (Elt F) → (⟨S1250000, .i32⟩ : BufTy).Contents (Elt F)),
    binary main_v3 main_v7 main_v8 (addi : (⟨S1250000, .i32⟩ : BufTy).Contents (Elt F) → (⟨S1250000, .i32⟩ : BufTy).Contents (Elt F) → (⟨S1250000, .i32⟩ : BufTy).Contents (Elt F)),
    ternary main_v6 main_v8 main_v3 main_v9 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v9 main_v10 (broadcastInDim S1250000x1 ![0] bcast_S1250000_S1250000x1_0 : (⟨S1250000, .i32⟩ : BufTy).Contents (Elt F) → (⟨S1250000x1, .i32⟩ : BufTy).Contents (Elt F)),
    binary main_v4 main_v10 main_v11 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_c_1 (constantI S_ 32 0#32),
    unary main_c_1 main_v12 (broadcastInDim S1250000 ![] bcast_S_S1250000 : (⟨S_, .i32⟩ : BufTy).Contents (Elt F) → (⟨S1250000, .i32⟩ : BufTy).Contents (Elt F)),
    binary main_v1 main_v12 main_v13 (cmpi .slt : (⟨S1250000, .i32⟩ : BufTy).Contents (Elt F) → (⟨S1250000, .i32⟩ : BufTy).Contents (Elt F) → (⟨S1250000, .i1⟩ : BufTy).Contents (Elt F)),
    nullary main_c_2 (constantI S_ 32 100000#32),
    unary main_c_2 main_v14 (broadcastInDim S1250000 ![] bcast_S_S1250000 : (⟨S_, .i32⟩ : BufTy).Contents (Elt F) → (⟨S1250000, .i32⟩ : BufTy).Contents (Elt F)),
    binary main_v1 main_v14 main_v15 (addi : (⟨S1250000, .i32⟩ : BufTy).Contents (Elt F) → (⟨S1250000, .i32⟩ : BufTy).Contents (Elt F) → (⟨S1250000, .i32⟩ : BufTy).Contents (Elt F)),
    ternary main_v13 main_v15 main_v1 main_v16 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v16 main_v17 (broadcastInDim S1250000x1 ![0] bcast_S1250000_S1250000x1_0 : (⟨S1250000, .i32⟩ : BufTy).Contents (Elt F) → (⟨S1250000x1, .i32⟩ : BufTy).Contents (Elt F)),
    binary main_v4 main_v17 main_v18 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    binary main_v11 main_v18 main_v19 ((fun a b => concatenate S1250000x128 1 [⟨S1250000x64, a⟩, ⟨S1250000x64, b⟩] concatenates_S1250000x64_S1250000x64_S1250000x128_d1) : (⟨S1250000x64, .f32⟩ : BufTy).Contents (Elt F) → (⟨S1250000x64, .f32⟩ : BufTy).Contents (Elt F) → (⟨S1250000x128, .f32⟩ : BufTy).Contents (Elt F)),
    binary main_v19 main_arg3 main_v20 ((fun l r => Host.dotGeneral dot_S1250000x128_S128x1_S1250000x1_1_0_0_1_n_n none l r) : (⟨S1250000x128, .f32⟩ : BufTy).Contents (Elt F) → (⟨S128x1, .f32⟩ : BufTy).Contents (Elt F) → (⟨S1250000x1, .f32⟩ : BufTy).Contents (Elt F)),
    unary main_arg4 main_v21 (broadcastInDim S1x1 ![1] bcast_S1_S1x1_1 : (⟨S1, .f32⟩ : BufTy).Contents (Elt F) → (⟨S1x1, .f32⟩ : BufTy).Contents (Elt F)),
    unary main_v21 main_v22 (broadcastInDim S1250000x1 ![0, 1] bcast_S1x1_S1250000x1_0_1 : (⟨S1x1, .f32⟩ : BufTy).Contents (Elt F) → (⟨S1250000x1, .f32⟩ : BufTy).Contents (Elt F)),
    binary main_v20 main_v22 main_v23 (addf : (⟨S1250000x1, .f32⟩ : BufTy).Contents (Elt F) → (⟨S1250000x1, .f32⟩ : BufTy).Contents (Elt F) → (⟨S1250000x1, .f32⟩ : BufTy).Contents (Elt F)),
    nullary main_cst (constant S_ .f32 0x3E4CCCCD#32),
    TRef.nullary main_call0.cst (constant S_ .f32 0x00000000#32),
    TRef.unary main_call0.cst main_call0.v0 (broadcastInDim S1250000x1 ![] bcast_S_S1250000x1),
    TRef.binary (.of main_v23) main_call0.v0 main_call0.v1 (cmpf .oge),
    TRef.unary (.of main_cst) main_call0.v2 id,
    TRef.unary main_call0.v2 main_call0.v3 (broadcastInDim S1250000x1 ![] bcast_S_S1250000x1),
    TRef.binary main_call0.v3 (.of main_v23) main_call0.v4 mulf,
    TRef.ternary main_call0.v1 (.of main_v23) main_call0.v4 main_call0.call0.v0 select,
    unary main_v24 main_v25 (Host.exp : (⟨S1250000x1, .f32⟩ : BufTy).Contents (Elt F) → (⟨S1250000x1, .f32⟩ : BufTy).Contents (Elt F)),
    nullary main_cst_3 (constant S_ .f32 0x00000000#32),
    unary main_cst_3 main_v26 (broadcastInDim S100000x1 ![] bcast_S_S100000x1 : (⟨S_, .f32⟩ : BufTy).Contents (Elt F) → (⟨S100000x1, .f32⟩ : BufTy).Contents (Elt F)),
    unary main_v3 main_v27 (broadcastInDim S1250000x1 ![0] bcast_S1250000_S1250000x1_0 : (⟨S1250000, .i32⟩ : BufTy).Contents (Elt F) → (⟨S1250000x1, .i32⟩ : BufTy).Contents (Elt F)),
    ternary main_v26 main_v27 main_v25 main_v28 ((fun x i u => Host.scatterAdd scatter_S100000x1_S1250000x1_S1250000x1_1_0_0_1 x i u) : (⟨S100000x1, .f32⟩ : BufTy).Contents (Elt F) → (⟨S1250000x1, .i32⟩ : BufTy).Contents (Elt F) → (⟨S1250000x1, .f32⟩ : BufTy).Contents (Elt F) → (⟨S100000x1, .f32⟩ : BufTy).Contents (Elt F)),
    nullary main_c_4 (constantI S_ 32 0#32),
    unary main_c_4 main_v29 (broadcastInDim S1250000 ![] bcast_S_S1250000 : (⟨S_, .i32⟩ : BufTy).Contents (Elt F) → (⟨S1250000, .i32⟩ : BufTy).Contents (Elt F)),
    binary main_v3 main_v29 main_v30 (cmpi .slt : (⟨S1250000, .i32⟩ : BufTy).Contents (Elt F) → (⟨S1250000, .i32⟩ : BufTy).Contents (Elt F) → (⟨S1250000, .i1⟩ : BufTy).Contents (Elt F)),
    nullary main_c_5 (constantI S_ 32 100000#32),
    unary main_c_5 main_v31 (broadcastInDim S1250000 ![] bcast_S_S1250000 : (⟨S_, .i32⟩ : BufTy).Contents (Elt F) → (⟨S1250000, .i32⟩ : BufTy).Contents (Elt F)),
    binary main_v3 main_v31 main_v32 (addi : (⟨S1250000, .i32⟩ : BufTy).Contents (Elt F) → (⟨S1250000, .i32⟩ : BufTy).Contents (Elt F) → (⟨S1250000, .i32⟩ : BufTy).Contents (Elt F)),
    ternary main_v30 main_v32 main_v3 main_v33 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v33 main_v34 (broadcastInDim S1250000x1 ![0] bcast_S1250000_S1250000x1_0 : (⟨S1250000, .i32⟩ : BufTy).Contents (Elt F) → (⟨S1250000x1, .i32⟩ : BufTy).Contents (Elt F)),
    binary main_v28 main_v34 main_v35 ((fun x i => Host.gather gather_S100000x1_S1250000x1_S1250000x1_1_0_n_n_0_1_11 x i) : (⟨S100000x1, .f32⟩ : BufTy).Contents (Elt F) → (⟨S1250000x1, .i32⟩ : BufTy).Contents (Elt F) → (⟨S1250000x1, .f32⟩ : BufTy).Contents (Elt F)),
    nullary main_cst_6 (constant S_ .f32 0x24E69595#32),
    unary main_cst_6 main_v36 (broadcastInDim S1250000x1 ![] bcast_S_S1250000x1 : (⟨S_, .f32⟩ : BufTy).Contents (Elt F) → (⟨S1250000x1, .f32⟩ : BufTy).Contents (Elt F)),
    binary main_v35 main_v36 main_v37 (addf : (⟨S1250000x1, .f32⟩ : BufTy).Contents (Elt F) → (⟨S1250000x1, .f32⟩ : BufTy).Contents (Elt F) → (⟨S1250000x1, .f32⟩ : BufTy).Contents (Elt F)),
    binary main_v25 main_v37 main_v38 (Host.divf : (⟨S1250000x1, .f32⟩ : BufTy).Contents (Elt F) → (⟨S1250000x1, .f32⟩ : BufTy).Contents (Elt F) → (⟨S1250000x1, .f32⟩ : BufTy).Contents (Elt F)),
    unary main_v38 main_v39 (broadcastInDim S1250000x64 ![0, 1] bcast_S1250000x1_S1250000x64_0_1 : (⟨S1250000x1, .f32⟩ : BufTy).Contents (Elt F) → (⟨S1250000x64, .f32⟩ : BufTy).Contents (Elt F)),
    binary main_v18 main_v39 main_v40 (mulf : (⟨S1250000x64, .f32⟩ : BufTy).Contents (Elt F) → (⟨S1250000x64, .f32⟩ : BufTy).Contents (Elt F) → (⟨S1250000x64, .f32⟩ : BufTy).Contents (Elt F)),
    nullary main_cst_7 (constant S_ .f32 0x00000000#32),
    unary main_cst_7 main_v41 (broadcastInDim S100000x64 ![] bcast_S_S100000x64 : (⟨S_, .f32⟩ : BufTy).Contents (Elt F) → (⟨S100000x64, .f32⟩ : BufTy).Contents (Elt F)),
    unary main_v3 main_v42 (broadcastInDim S1250000x1 ![0] bcast_S1250000_S1250000x1_0 : (⟨S1250000, .i32⟩ : BufTy).Contents (Elt F) → (⟨S1250000x1, .i32⟩ : BufTy).Contents (Elt F)),
    ternary main_v41 main_v42 main_v40 main_v43 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    binary main_arg0 main_arg5 main_v44 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v43 main_v44 main_v45 (addf : (⟨S100000x64, .f32⟩ : BufTy).Contents (Elt F) → (⟨S100000x64, .f32⟩ : BufTy).Contents (Elt F) → (⟨S100000x64, .f32⟩ : BufTy).Contents (Elt F)),
    unary main_arg6 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)) ]

-- sixty-five sequencing steps are re-associated, one inside the other
set_option maxRecDepth 2048 in
/-- @main is that straight line: the two functions' definitions unfolded at their calls, both sides are one
    chain of steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub ..⟩

/-- From any memory with zero counters every weakly fair execution of @main terminates, and every final state
    has each buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The first stretch: the two index rows, the projection, and the two row gathers at wrapped indices. -/
abbrev opsA : List (HloOp τ sig (Elt F)) :=
  [ unary main_arg1 main_v0 ((extractStridedSlice S1x1250000 ![0, 0] · slices_S2x1250000_S1x1250000_0_0) : (⟨S2x1250000, .i32⟩ : BufTy).Contents (Elt F) → (⟨S1x1250000, .i32⟩ : BufTy).Contents (Elt F)),
    reshape main_v0 main_v1 rfl shapeCasts_S1x1250000_S1250000,
    unary main_arg1 main_v2 ((extractStridedSlice S1x1250000 ![1, 0] · slices_S2x1250000_S1x1250000_1_0) : (⟨S2x1250000, .i32⟩ : BufTy).Contents (Elt F) → (⟨S1x1250000, .i32⟩ : BufTy).Contents (Elt F)),
    reshape main_v2 main_v3 rfl shapeCasts_S1x1250000_S1250000,
    binary main_arg0 main_arg2 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c (constantI S_ 32 0#32),
    unary main_c main_v5 (broadcastInDim S1250000 ![] bcast_S_S1250000 : (⟨S_, .i32⟩ : BufTy).Contents (Elt F) → (⟨S1250000, .i32⟩ : BufTy).Contents (Elt F)),
    binary main_v3 main_v5 main_v6 (cmpi .slt : (⟨S1250000, .i32⟩ : BufTy).Contents (Elt F) → (⟨S1250000, .i32⟩ : BufTy).Contents (Elt F) → (⟨S1250000, .i1⟩ : BufTy).Contents (Elt F)),
    nullary main_c_0 (constantI S_ 32 100000#32),
    unary main_c_0 main_v7 (broadcastInDim S1250000 ![] bcast_S_S1250000 : (⟨S_, .i32⟩ : BufTy).Contents (Elt F) → (⟨S1250000, .i32⟩ : BufTy).Contents (Elt F)),
    binary main_v3 main_v7 main_v8 (addi : (⟨S1250000, .i32⟩ : BufTy).Contents (Elt F) → (⟨S1250000, .i32⟩ : BufTy).Contents (Elt F) → (⟨S1250000, .i32⟩ : BufTy).Contents (Elt F)),
    ternary main_v6 main_v8 main_v3 main_v9 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v9 main_v10 (broadcastInDim S1250000x1 ![0] bcast_S1250000_S1250000x1_0 : (⟨S1250000, .i32⟩ : BufTy).Contents (Elt F) → (⟨S1250000x1, .i32⟩ : BufTy).Contents (Elt F)),
    binary main_v4 main_v10 main_v11 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_c_1 (constantI S_ 32 0#32),
    unary main_c_1 main_v12 (broadcastInDim S1250000 ![] bcast_S_S1250000 : (⟨S_, .i32⟩ : BufTy).Contents (Elt F) → (⟨S1250000, .i32⟩ : BufTy).Contents (Elt F)),
    binary main_v1 main_v12 main_v13 (cmpi .slt : (⟨S1250000, .i32⟩ : BufTy).Contents (Elt F) → (⟨S1250000, .i32⟩ : BufTy).Contents (Elt F) → (⟨S1250000, .i1⟩ : BufTy).Contents (Elt F)),
    nullary main_c_2 (constantI S_ 32 100000#32),
    unary main_c_2 main_v14 (broadcastInDim S1250000 ![] bcast_S_S1250000 : (⟨S_, .i32⟩ : BufTy).Contents (Elt F) → (⟨S1250000, .i32⟩ : BufTy).Contents (Elt F)),
    binary main_v1 main_v14 main_v15 (addi : (⟨S1250000, .i32⟩ : BufTy).Contents (Elt F) → (⟨S1250000, .i32⟩ : BufTy).Contents (Elt F) → (⟨S1250000, .i32⟩ : BufTy).Contents (Elt F)),
    ternary main_v13 main_v15 main_v1 main_v16 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v16 main_v17 (broadcastInDim S1250000x1 ![0] bcast_S1250000_S1250000x1_0 : (⟨S1250000, .i32⟩ : BufTy).Contents (Elt F) → (⟨S1250000x1, .i32⟩ : BufTy).Contents (Elt F)),
    binary main_v4 main_v17 main_v18 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)) ]

/-- The second stretch: the concatenated rows against the attention weights plus the bias, the leaky rectifier (its call unfolded) and the exponential. -/
abbrev opsB : List (HloOp τ sig (Elt F)) :=
  [ binary main_v11 main_v18 main_v19 ((fun a b => concatenate S1250000x128 1 [⟨S1250000x64, a⟩, ⟨S1250000x64, b⟩] concatenates_S1250000x64_S1250000x64_S1250000x128_d1) : (⟨S1250000x64, .f32⟩ : BufTy).Contents (Elt F) → (⟨S1250000x64, .f32⟩ : BufTy).Contents (Elt F) → (⟨S1250000x128, .f32⟩ : BufTy).Contents (Elt F)),
    binary main_v19 main_arg3 main_v20 ((fun l r => Host.dotGeneral dot_S1250000x128_S128x1_S1250000x1_1_0_0_1_n_n none l r) : (⟨S1250000x128, .f32⟩ : BufTy).Contents (Elt F) → (⟨S128x1, .f32⟩ : BufTy).Contents (Elt F) → (⟨S1250000x1, .f32⟩ : BufTy).Contents (Elt F)),
    unary main_arg4 main_v21 (broadcastInDim S1x1 ![1] bcast_S1_S1x1_1 : (⟨S1, .f32⟩ : BufTy).Contents (Elt F) → (⟨S1x1, .f32⟩ : BufTy).Contents (Elt F)),
    unary main_v21 main_v22 (broadcastInDim S1250000x1 ![0, 1] bcast_S1x1_S1250000x1_0_1 : (⟨S1x1, .f32⟩ : BufTy).Contents (Elt F) → (⟨S1250000x1, .f32⟩ : BufTy).Contents (Elt F)),
    binary main_v20 main_v22 main_v23 (addf : (⟨S1250000x1, .f32⟩ : BufTy).Contents (Elt F) → (⟨S1250000x1, .f32⟩ : BufTy).Contents (Elt F) → (⟨S1250000x1, .f32⟩ : BufTy).Contents (Elt F)),
    nullary main_cst (constant S_ .f32 0x3E4CCCCD#32),
    TRef.nullary main_call0.cst (constant S_ .f32 0x00000000#32),
    TRef.unary main_call0.cst main_call0.v0 (broadcastInDim S1250000x1 ![] bcast_S_S1250000x1),
    TRef.binary (.of main_v23) main_call0.v0 main_call0.v1 (cmpf .oge),
    TRef.unary (.of main_cst) main_call0.v2 id,
    TRef.unary main_call0.v2 main_call0.v3 (broadcastInDim S1250000x1 ![] bcast_S_S1250000x1),
    TRef.binary main_call0.v3 (.of main_v23) main_call0.v4 mulf,
    TRef.ternary main_call0.v1 (.of main_v23) main_call0.v4 main_call0.call0.v0 select,
    unary main_v24 main_v25 (Host.exp : (⟨S1250000x1, .f32⟩ : BufTy).Contents (Elt F) → (⟨S1250000x1, .f32⟩ : BufTy).Contents (Elt F)) ]

/-- The third stretch: the per-destination sums of the numerators, gathered back per edge, and the coefficient. -/
abbrev opsC : List (HloOp τ sig (Elt F)) :=
  [ nullary main_cst_3 (constant S_ .f32 0x00000000#32),
    unary main_cst_3 main_v26 (broadcastInDim S100000x1 ![] bcast_S_S100000x1 : (⟨S_, .f32⟩ : BufTy).Contents (Elt F) → (⟨S100000x1, .f32⟩ : BufTy).Contents (Elt F)),
    unary main_v3 main_v27 (broadcastInDim S1250000x1 ![0] bcast_S1250000_S1250000x1_0 : (⟨S1250000, .i32⟩ : BufTy).Contents (Elt F) → (⟨S1250000x1, .i32⟩ : BufTy).Contents (Elt F)),
    ternary main_v26 main_v27 main_v25 main_v28 ((fun x i u => Host.scatterAdd scatter_S100000x1_S1250000x1_S1250000x1_1_0_0_1 x i u) : (⟨S100000x1, .f32⟩ : BufTy).Contents (Elt F) → (⟨S1250000x1, .i32⟩ : BufTy).Contents (Elt F) → (⟨S1250000x1, .f32⟩ : BufTy).Contents (Elt F) → (⟨S100000x1, .f32⟩ : BufTy).Contents (Elt F)),
    nullary main_c_4 (constantI S_ 32 0#32),
    unary main_c_4 main_v29 (broadcastInDim S1250000 ![] bcast_S_S1250000 : (⟨S_, .i32⟩ : BufTy).Contents (Elt F) → (⟨S1250000, .i32⟩ : BufTy).Contents (Elt F)),
    binary main_v3 main_v29 main_v30 (cmpi .slt : (⟨S1250000, .i32⟩ : BufTy).Contents (Elt F) → (⟨S1250000, .i32⟩ : BufTy).Contents (Elt F) → (⟨S1250000, .i1⟩ : BufTy).Contents (Elt F)),
    nullary main_c_5 (constantI S_ 32 100000#32),
    unary main_c_5 main_v31 (broadcastInDim S1250000 ![] bcast_S_S1250000 : (⟨S_, .i32⟩ : BufTy).Contents (Elt F) → (⟨S1250000, .i32⟩ : BufTy).Contents (Elt F)),
    binary main_v3 main_v31 main_v32 (addi : (⟨S1250000, .i32⟩ : BufTy).Contents (Elt F) → (⟨S1250000, .i32⟩ : BufTy).Contents (Elt F) → (⟨S1250000, .i32⟩ : BufTy).Contents (Elt F)),
    ternary main_v30 main_v32 main_v3 main_v33 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v33 main_v34 (broadcastInDim S1250000x1 ![0] bcast_S1250000_S1250000x1_0 : (⟨S1250000, .i32⟩ : BufTy).Contents (Elt F) → (⟨S1250000x1, .i32⟩ : BufTy).Contents (Elt F)),
    binary main_v28 main_v34 main_v35 ((fun x i => Host.gather gather_S100000x1_S1250000x1_S1250000x1_1_0_n_n_0_1_11 x i) : (⟨S100000x1, .f32⟩ : BufTy).Contents (Elt F) → (⟨S1250000x1, .i32⟩ : BufTy).Contents (Elt F) → (⟨S1250000x1, .f32⟩ : BufTy).Contents (Elt F)),
    nullary main_cst_6 (constant S_ .f32 0x24E69595#32),
    unary main_cst_6 main_v36 (broadcastInDim S1250000x1 ![] bcast_S_S1250000x1 : (⟨S_, .f32⟩ : BufTy).Contents (Elt F) → (⟨S1250000x1, .f32⟩ : BufTy).Contents (Elt F)),
    binary main_v35 main_v36 main_v37 (addf : (⟨S1250000x1, .f32⟩ : BufTy).Contents (Elt F) → (⟨S1250000x1, .f32⟩ : BufTy).Contents (Elt F) → (⟨S1250000x1, .f32⟩ : BufTy).Contents (Elt F)),
    binary main_v25 main_v37 main_v38 (Host.divf : (⟨S1250000x1, .f32⟩ : BufTy).Contents (Elt F) → (⟨S1250000x1, .f32⟩ : BufTy).Contents (Elt F) → (⟨S1250000x1, .f32⟩ : BufTy).Contents (Elt F)) ]

/-- The last stretch: the weighted rows summed per destination, the residual projection and the output bias. -/
abbrev opsD : List (HloOp τ sig (Elt F)) :=
  [ unary main_v38 main_v39 (broadcastInDim S1250000x64 ![0, 1] bcast_S1250000x1_S1250000x64_0_1 : (⟨S1250000x1, .f32⟩ : BufTy).Contents (Elt F) → (⟨S1250000x64, .f32⟩ : BufTy).Contents (Elt F)),
    binary main_v18 main_v39 main_v40 (mulf : (⟨S1250000x64, .f32⟩ : BufTy).Contents (Elt F) → (⟨S1250000x64, .f32⟩ : BufTy).Contents (Elt F) → (⟨S1250000x64, .f32⟩ : BufTy).Contents (Elt F)),
    nullary main_cst_7 (constant S_ .f32 0x00000000#32),
    unary main_cst_7 main_v41 (broadcastInDim S100000x64 ![] bcast_S_S100000x64 : (⟨S_, .f32⟩ : BufTy).Contents (Elt F) → (⟨S100000x64, .f32⟩ : BufTy).Contents (Elt F)),
    unary main_v3 main_v42 (broadcastInDim S1250000x1 ![0] bcast_S1250000_S1250000x1_0 : (⟨S1250000, .i32⟩ : BufTy).Contents (Elt F) → (⟨S1250000x1, .i32⟩ : BufTy).Contents (Elt F)),
    ternary main_v41 main_v42 main_v40 main_v43 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    binary main_arg0 main_arg5 main_v44 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v43 main_v44 main_v45 (addf : (⟨S100000x64, .f32⟩ : BufTy).Contents (Elt F) → (⟨S100000x64, .f32⟩ : BufTy).Contents (Elt F) → (⟨S100000x64, .f32⟩ : BufTy).Contents (Elt F)),
    unary main_arg6 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)) ]

/-- The line is its four stretches one after the other. -/
theorem ops_split : (ops : List (HloOp τ sig (Elt F))) = opsA ++ (opsB ++ (opsC ++ opsD)) := rfl

/-- The contents after two lines run one after the other: the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ### What each stretch leaves in the buffers read after it -/

attribute [local irreducible] Host.gather

theorem A_v3 (W : Valuation τ sig (Elt F)) :
    after opsA W (main_v3 : DevRef τ sig) = RT.dstOf (W (main_arg1 : DevRef τ sig)) := by
  after_results_simp
  rfl

theorem A_v11 (W : Valuation τ sig (Elt F)) :
    after opsA W (main_v11 : DevRef τ sig) = RT.hiOf (W (main_arg0 : DevRef τ sig)) (W (main_arg1 : DevRef τ sig)) (W (main_arg2 : DevRef τ sig)) := by
  after_results_simp
  rfl

theorem A_v18 (W : Valuation τ sig (Elt F)) :
    after opsA W (main_v18 : DevRef τ sig) = RT.hjOf (W (main_arg0 : DevRef τ sig)) (W (main_arg1 : DevRef τ sig)) (W (main_arg2 : DevRef τ sig)) := by
  after_results_simp
  rfl

theorem A_arg0 (W : Valuation τ sig (Elt F)) :
    after opsA W (main_arg0 : DevRef τ sig) = W (main_arg0 : DevRef τ sig) := by
  after_results_simp

theorem A_arg3 (W : Valuation τ sig (Elt F)) :
    after opsA W (main_arg3 : DevRef τ sig) = W (main_arg3 : DevRef τ sig) := by
  after_results_simp

theorem A_arg4 (W : Valuation τ sig (Elt F)) :
    after opsA W (main_arg4 : DevRef τ sig) = W (main_arg4 : DevRef τ sig) := by
  after_results_simp

theorem A_arg5 (W : Valuation τ sig (Elt F)) :
    after opsA W (main_arg5 : DevRef τ sig) = W (main_arg5 : DevRef τ sig) := by
  after_results_simp

theorem A_arg6 (W : Valuation τ sig (Elt F)) :
    after opsA W (main_arg6 : DevRef τ sig) = W (main_arg6 : DevRef τ sig) := by
  after_results_simp

theorem B_v25 (W : Valuation τ sig (Elt F)) :
    after opsB W (main_v25 : DevRef τ sig) = RT.numOfScore (RT.scoreOf (W (main_v11 : DevRef τ sig)) (W (main_v18 : DevRef τ sig)) (W (main_arg3 : DevRef τ sig)) (W (main_arg4 : DevRef τ sig))) := by
  after_results_simp
  rfl

theorem B_v3 (W : Valuation τ sig (Elt F)) :
    after opsB W (main_v3 : DevRef τ sig) = W (main_v3 : DevRef τ sig) := by
  after_results_simp

theorem B_v18 (W : Valuation τ sig (Elt F)) :
    after opsB W (main_v18 : DevRef τ sig) = W (main_v18 : DevRef τ sig) := by
  after_results_simp

theorem B_arg0 (W : Valuation τ sig (Elt F)) :
    after opsB W (main_arg0 : DevRef τ sig) = W (main_arg0 : DevRef τ sig) := by
  after_results_simp

theorem B_arg5 (W : Valuation τ sig (Elt F)) :
    after opsB W (main_arg5 : DevRef τ sig) = W (main_arg5 : DevRef τ sig) := by
  after_results_simp

theorem B_arg6 (W : Valuation τ sig (Elt F)) :
    after opsB W (main_arg6 : DevRef τ sig) = W (main_arg6 : DevRef τ sig) := by
  after_results_simp

theorem C_v38 (W : Valuation τ sig (Elt F)) :
    after opsC W (main_v38 : DevRef τ sig) = RT.alphaOf (W (main_v25 : DevRef τ sig)) (RT.gather1 (RT.denomOf (W (main_v25 : DevRef τ sig)) (W (main_v3 : DevRef τ sig))) (W (main_v3 : DevRef τ sig))) := by
  after_results_simp
  rfl

theorem C_v3 (W : Valuation τ sig (Elt F)) :
    after opsC W (main_v3 : DevRef τ sig) = W (main_v3 : DevRef τ sig) := by
  after_results_simp

theorem C_v18 (W : Valuation τ sig (Elt F)) :
    after opsC W (main_v18 : DevRef τ sig) = W (main_v18 : DevRef τ sig) := by
  after_results_simp

theorem C_arg0 (W : Valuation τ sig (Elt F)) :
    after opsC W (main_arg0 : DevRef τ sig) = W (main_arg0 : DevRef τ sig) := by
  after_results_simp

theorem C_arg5 (W : Valuation τ sig (Elt F)) :
    after opsC W (main_arg5 : DevRef τ sig) = W (main_arg5 : DevRef τ sig) := by
  after_results_simp

theorem C_arg6 (W : Valuation τ sig (Elt F)) :
    after opsC W (main_arg6 : DevRef τ sig) = W (main_arg6 : DevRef τ sig) := by
  after_results_simp

theorem D_v48 (W : Valuation τ sig (Elt F)) :
    after opsD W (main_v48 : DevRef τ sig) = RT.combineOf (RT.aggOf (RT.weightedOf (W (main_v18 : DevRef τ sig)) (W (main_v38 : DevRef τ sig))) (W (main_v3 : DevRef τ sig)))
        (RT.projOf (W (main_arg0 : DevRef τ sig)) (W (main_arg5 : DevRef τ sig))) (W (main_arg6 : DevRef τ sig)) := by
  after_results_simp
  rfl

/-- The fold at the result buffer is `refOut` of the arguments: the four stretches composed. -/
theorem out_eq (V : Valuation τ sig (Elt F)) :
    after ops V (main_v48 : DevRef τ sig)
      = RT.refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  rw [ops_split, after_append, after_append, after_append, D_v48,
    C_v18, C_v38, C_v3, C_arg0, C_arg5, C_arg6,
    B_v18, B_v25, B_v3, B_arg0, B_arg5, B_arg6,
    A_v18, A_v11, A_v3, A_arg0, A_arg3, A_arg4, A_arg5, A_arg6]
  rfl

/-! ### The arguments are never written -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-- The reference's run: the result buffer ends at `refOut` of the launch arguments, the arguments as launched. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v48)
        = RT.refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := F)) _ _).mono
    (fun r h c => ⟨(h c main_v48).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _)⟩)
    (run_main m ρ)

end Cert.ReferenceIdeal.Value

end
-- ==== Proof.BridgeTake.lean ====
/-
  An index vector whose entries all lie in [0, 100000): for such a vector the kernel program's guarded
  gather (gathered row where the wrapped index is in the table, NaN word elsewhere) is the reference's
  plain gather at the wrapped index, because the guard is true at every edge.
-/
import proofs.«419194_j39496519254635_1_alg».proof.KernelIdeal
import proofs.«419194_j39496519254635_1_alg».proof.ReferenceIdeal
import proofs.«419194_j39496519254635_1_alg».proof.Proof.KTerm
import proofs.«419194_j39496519254635_1_alg».proof.Proof.RTerm

import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx
open Cert.KernelIdeal (S100000x128 S2x1250000 S128x64 S128x1 S1 S64 S1250000 S100000x64 S1250000x64 S1250000x1 S100000x1 S1x64 S1x1)

variable [Cert.KernelIdeal.Facts] [Cert.ReferenceIdeal.Facts]

/-- Every entry, read as a signed integer, is a valid row number of a 100000-row table. -/
def InRange (i : IVec S1250000 32) : Prop := ∀ e, 0 ≤ (i e).toInt ∧ (i e).toInt < 100000

/-! ## Words -/

/-- A left fold by `and` from 1 over bits that are all 1 is 1. -/
theorem foldl_andi_ones {ι : Type} (f : ι → BitVec 1) (hf : ∀ n, f n = 1#1) (l : List ι) :
    l.foldl (fun r n => IntOp.andi r (f n)) 1#1 = 1#1 := by
  induction l with
  | nil => rfl
  | cons a l ih =>
    have h1 : IntOp.andi 1#1 (f a) = 1#1 := by rw [hf a]; rfl
    show List.foldl (fun r n => IntOp.andi r (f n)) (IntOp.andi 1#1 (f a)) l = 1#1
    rw [h1]; exact ih

/-- A reduction by `and` from 1 of an array of 1s is 1 everywhere. -/
theorem reduce_andi_ones {s t u : Shape} {axes : List (Fin s.rank)} (x : s.Idx → BitVec 1) (hx : ∀ i, x i = 1#1)
    (init : u.Idx → BitVec 1) (hinit : ∀ k, init k = 1#1) (h : s.ReducesTo axes t) (hu : 0 < u.numel) (j : t.Idx) :
    Host.reduce IntOp.andi x init h hu j = 1#1 := by
  rw [Host.reduce_eq_foldl, hinit]
  exact foldl_andi_ones x hx _

/-- The wrap of one word: 100000 added where it is negative. -/
def wrapW (w : BitVec 32) : BitVec 32 := Scalar.select (IntOp.cmpi .slt w 0#32) (IntOp.addi w 100000#32) w

/-- A non-negative word is not wrapped. -/
theorem wrapW_of_nonneg {w : BitVec 32} (h0 : 0 ≤ w.toInt) : wrapW w = w := by
  have hz : (0#32 : BitVec 32).toInt = 0 := by decide
  have hc : IntOp.cmpi .slt w 0#32 = 0#1 := by
    show BitVec.ofBool (w.slt 0#32) = 0#1
    have : w.slt 0#32 = false := by
      simp only [BitVec.slt, hz, decide_eq_false_iff_not]; omega
    rw [this]; rfl
  unfold wrapW
  rw [hc, select_zero]

/-- A word in [0, 100000) passes both guards. -/
theorem guards_of_inRange {w : BitVec 32} (h0 : 0 ≤ w.toInt) (h1 : w.toInt < 100000) :
    IntOp.andi (IntOp.cmpi .sge w 0#32) (IntOp.cmpi .sle w 99999#32) = 1#1 := by
  have hz : (0#32 : BitVec 32).toInt = 0 := by decide
  have hn : (99999#32 : BitVec 32).toInt = 99999 := by decide
  have ha : IntOp.cmpi .sge w 0#32 = 1#1 := by
    show BitVec.ofBool ((0#32 : BitVec 32).sle w) = 1#1
    have : (0#32 : BitVec 32).sle w = true := by
      simp only [BitVec.sle, hz, decide_eq_true_eq]; omega
    rw [this]; rfl
  have hb : IntOp.cmpi .sle w 99999#32 = 1#1 := by
    show BitVec.ofBool (w.sle 99999#32) = 1#1
    have : w.sle 99999#32 = true := by
      simp only [BitVec.sle, hn, decide_eq_true_eq]; omega
    rw [this]; rfl
  rw [ha, hb]; rfl

/-! ## The wrapped index and the mask at an edge -/

/-- The wrapped column at any position is the wrap of some entry. -/
theorem kt_wrapIdx_apply (i : IVec S1250000 32) (j : S1250000x1.Idx) :
    ∃ e, Cert.KernelIdeal.KT.wrapIdx i j = wrapW (i e) := ⟨_, rfl⟩

/-- In range the mask is 1 at every edge. -/
theorem inRangeMask_one (i : IVec S1250000 32) (hi : InRange i) (e : S1250000.Idx) :
    Cert.KernelIdeal.KT.inRangeMask i e = 1#1 := by
  unfold Cert.KernelIdeal.KT.inRangeMask
  refine reduce_andi_ones _ ?_ _ (fun _ => rfl) _ _ _
  intro j
  obtain ⟨e', he'⟩ := kt_wrapIdx_apply i j
  show IntOp.andi (IntOp.cmpi .sge (Cert.KernelIdeal.KT.wrapIdx i j) 0#32) (IntOp.cmpi .sle (Cert.KernelIdeal.KT.wrapIdx i j) 99999#32) = 1#1
  rw [he', wrapW_of_nonneg (hi e').1]
  exact guards_of_inRange (hi e').1 (hi e').2

/-- In range, the guarded 64-wide gather is the plain one. -/
theorem take64_eq (h : FVec Ideal S100000x64 .f32) (i : IVec S1250000 32) (hi : InRange i) :
    Cert.KernelIdeal.KT.take64 h i = Cert.ReferenceIdeal.RT.gather64 h i := by
  have hk : Cert.KernelIdeal.KT.take64 h i
      = Host.gather Cert.KernelIdeal.gather_S100000x64_S1250000x1_S1250000x64_1_0_n_n_0_1_164 h (Cert.KernelIdeal.KT.wrapIdx i) := by
    funext j
    unfold Cert.KernelIdeal.KT.take64
    rw [select_apply]
    have hm : broadcastInDim S1250000x64 ![0] Cert.KernelIdeal.Facts₀.bcast_S1250000_S1250000x64_0 (Cert.KernelIdeal.KT.inRangeMask i) j = 1#1 :=
      inRangeMask_one i hi _
    rw [hm, select_one]
  rw [hk]
  rfl

/-- In range, the guarded 1-wide gather is the plain one. -/
theorem take1_eq (d : FVec Ideal S100000x1 .f32) (i : IVec S1250000 32) (hi : InRange i) :
    Cert.KernelIdeal.KT.take1 d i = Cert.ReferenceIdeal.RT.gather1 d i := by
  have hk : Cert.KernelIdeal.KT.take1 d i
      = Host.gather Cert.KernelIdeal.gather_S100000x1_S1250000x1_S1250000x1_1_0_n_n_0_1_11 d (Cert.KernelIdeal.KT.wrapIdx i) := by
    funext j
    unfold Cert.KernelIdeal.KT.take1
    rw [select_apply]
    have hm : broadcastInDim S1250000x1 ![0] Cert.KernelIdeal.Facts₀.bcast_S1250000_S1250000x1_0 (Cert.KernelIdeal.KT.inRangeMask i) j = 1#1 :=
      inRangeMask_one i hi _
    rw [hm, select_one]
  rw [hk]
  rfl

end Cert.Bridge

end
-- ==== Proof.BridgeProj.lean ====
/-
  The reference's dot_general of a 100000×128 array with a 128×64 array, read at an index, is the sum over
  the contracted axis: the same whole-array function the kernel's blocks assemble to.
-/
import proofs.«419194_j39496519254635_1_alg».proof.KernelIdeal
import proofs.«419194_j39496519254635_1_alg».proof.ReferenceIdeal
import proofs.«419194_j39496519254635_1_alg».proof.Proof.KTerm
import proofs.«419194_j39496519254635_1_alg».proof.Proof.RTerm
import proofs.«419194_j39496519254635_1_alg».proof.Proof.SpecProj
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx
open Cert.KernelIdeal (S100000x128 S2x1250000 S128x64 S128x1 S1 S64 S1250000 S100000x64 S1250000x64 S1250000x1 S100000x1 S1x64 S1x1)

variable [Cert.KernelIdeal.Facts] [Cert.ReferenceIdeal.Facts]

/-- The left operand's row coordinate is the output's row. -/
theorem lhs_proj_0 (j : S100000x64.Idx) (k : Cert.ReferenceIdeal.dot_S100000x128_S128x64_S100000x64_1_0_0_1_n_n.contr.Idx) :
    (Cert.ReferenceIdeal.dot_S100000x128_S128x64_S100000x64_1_0_0_1_n_n.lhsIdx j k 0).val = (j 0).val := by
  simp [DotDims.lhsIdx, Cert.ReferenceIdeal.dot_S100000x128_S128x64_S100000x64_1_0_0_1_n_n]; rfl

/-- The left operand's column coordinate is the contracted position. -/
theorem lhs_proj_1 (j : S100000x64.Idx) (k : Cert.ReferenceIdeal.dot_S100000x128_S128x64_S100000x64_1_0_0_1_n_n.contr.Idx) :
    (Cert.ReferenceIdeal.dot_S100000x128_S128x64_S100000x64_1_0_0_1_n_n.lhsIdx j k 1).val = (k ⟨0, by rw [DotDims.rank_contr]; exact Nat.one_pos⟩).val :=
  DotDims.lhsIdx_val_of_single _ rfl j k

/-- The right operand's row coordinate is the contracted position. -/
theorem rhs_proj_0 (j : S100000x64.Idx) (k : Cert.ReferenceIdeal.dot_S100000x128_S128x64_S100000x64_1_0_0_1_n_n.contr.Idx) :
    (Cert.ReferenceIdeal.dot_S100000x128_S128x64_S100000x64_1_0_0_1_n_n.rhsIdx j k 0).val = (k ⟨0, by rw [DotDims.rank_contr]; exact Nat.one_pos⟩).val :=
  DotDims.rhsIdx_val_of_single _ rfl j k

/-- The right operand's column coordinate is the output's column. -/
theorem rhs_proj_1 (j : S100000x64.Idx) (k : Cert.ReferenceIdeal.dot_S100000x128_S128x64_S100000x64_1_0_0_1_n_n.contr.Idx) :
    (Cert.ReferenceIdeal.dot_S100000x128_S128x64_S100000x64_1_0_0_1_n_n.rhsIdx j k 1).val = (j 1).val := by
  simp [DotDims.rhsIdx, Cert.ReferenceIdeal.dot_S100000x128_S128x64_S100000x64_1_0_0_1_n_n]; rfl

/-- The host matrix product is the index-by-index sum of products. -/
theorem proj_eq (x : FVec Ideal S100000x128 .f32) (w : FVec Ideal S128x64 .f32) :
    Cert.ReferenceIdeal.RT.projOf (F := Ideal) x w = Cert.Spec.proj x w := by
  funext i
  obtain ⟨p, q, rfl⟩ : ∃ (p : Fin 100000) (q : Fin 64), i = ix2 p q := ⟨i 0, i 1, eq_ix2 i⟩
  show FloatOps.dotGeneral Cert.ReferenceIdeal.dot_S100000x128_S128x64_S100000x64_1_0_0_1_n_n none _ x w (ix2 p q) = ∑ k : Fin 128, x (ix2 p k) * w (ix2 k q)
  rw [Ideal.dotGeneral_apply,
    ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have hl : Cert.ReferenceIdeal.dot_S100000x128_S128x64_S100000x64_1_0_0_1_n_n.lhsIdx (ix2 p q)
      ((contrEquiv1 _ 128 rfl rfl).symm k) = ix2 p k := by
    funext a; apply Fin.ext
    match a with
    | ⟨0, _⟩ => exact lhs_proj_0 _ _
    | ⟨1, _⟩ => exact (lhs_proj_1 _ _).trans hk
  have hr : Cert.ReferenceIdeal.dot_S100000x128_S128x64_S100000x64_1_0_0_1_n_n.rhsIdx (ix2 p q)
      ((contrEquiv1 _ 128 rfl rfl).symm k) = ix2 k q := by
    funext a; apply Fin.ext
    match a with
    | ⟨0, _⟩ => exact (rhs_proj_0 _ _).trans hk
    | ⟨1, _⟩ => exact rhs_proj_1 _ _
  rw [hl, hr]

end Cert.Bridge

end
-- ==== Proof.BridgeScore.lean ====
/-
  The reference's score — the concatenated rows [hi | hj] against the 128 attention weights, plus the bias —
  is the kernel's two 64-term sums plus the bias: the 128-term sum splits at position 64, the first half
  meeting hi and the first 64 weights, the second hj and the last 64. The rectifier and exp are the same
  pointwise functions on both sides.
-/
import proofs.«419194_j39496519254635_1_alg».proof.KernelIdeal
import proofs.«419194_j39496519254635_1_alg».proof.ReferenceIdeal
import proofs.«419194_j39496519254635_1_alg».proof.Proof.KTerm
import proofs.«419194_j39496519254635_1_alg».proof.Proof.RTerm
import proofs.«419194_j39496519254635_1_alg».proof.Proof.SpecScore
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember

noncomputable section

namespace Cert.Bridge

open Idealize.ShloMosaic Idealize.ShloMosaic.ValueIdx
open Cert.KernelIdeal (S100000x128 S2x1250000 S128x64 S128x1 S1 S64 S1250000 S100000x64 S1250000x64 S1250000x1 S100000x1 S1x64 S1x1)

variable [Cert.KernelIdeal.Facts] [Cert.ReferenceIdeal.Facts]

/-- The reference's dimension numbers are those of the plain product of a 1250000×128 by a 128×1 matrix. -/
theorem dot_eq_plain :
    Cert.ReferenceIdeal.dot_S1250000x128_S128x1_S1250000x1_1_0_0_1_n_n = DotDims.plain 1250000 128 1 := rfl

/-- The concatenated rows read a left position in the first array. -/
theorem cat_left (hi hj : FVec Ideal S1250000x64 .f32) (e : Fin 1250000) (k : Fin 64) :
    concatenate Cert.ReferenceIdeal.S1250000x128 1 [⟨S1250000x64, hi⟩, ⟨S1250000x64, hj⟩]
        Cert.ReferenceIdeal.Facts₀.concatenates_S1250000x64_S1250000x64_S1250000x128_d1 (ix2 e (Fin.castAdd 64 k))
      = hi (ix2 e k) := by
  refine concatenate_pair_apply_left (t := Cert.ReferenceIdeal.S1250000x128) (1 : Fin 2) hi hj _ (ix2 e (Fin.castAdd 64 k)) rfl (ix2 e k) fun b => ?_
  match b with
  | ⟨0, _⟩ => rfl
  | ⟨1, _⟩ => rfl

/-- The concatenated rows read a right position in the second array, 64 positions earlier. -/
theorem cat_right (hi hj : FVec Ideal S1250000x64 .f32) (e : Fin 1250000) (k : Fin 64) :
    concatenate Cert.ReferenceIdeal.S1250000x128 1 [⟨S1250000x64, hi⟩, ⟨S1250000x64, hj⟩]
        Cert.ReferenceIdeal.Facts₀.concatenates_S1250000x64_S1250000x64_S1250000x128_d1 (ix2 e (Fin.natAdd 64 k))
      = hj (ix2 e k) := by
  refine concatenate_pair_apply_right (t := Cert.ReferenceIdeal.S1250000x128) (1 : Fin 2) hi hj _ (ix2 e (Fin.natAdd 64 k)) rfl rfl (ix2 e k) (fun b hb => ?_) ?_
  · match b with
    | ⟨0, _⟩ => rfl
    | ⟨1, _⟩ => exact absurd rfl hb
  · show k.val + 64 = 64 + k.val
    omega

/-- The first weight row at lane k is weight k. -/
theorem wi_apply (wa : FVec Ideal S128x1 .f32) (k : Fin 64) :
    Cert.KernelIdeal.KT.wiOf wa (ix2 0 k) = wa (ix2 (Fin.castAdd 64 k) 0) := by
  unfold Cert.KernelIdeal.KT.wiOf
  refine (shapeCast_apply _ _ (ix2 0 k) (ix1 k) (by
    rw [Shape.rowMajor_val_one, Shape.rowMajor_val_two]; show k.val = 0 * 64 + k.val; omega)).trans ?_
  refine (shapeCast_apply _ _ (ix1 k) (ix2 k (0 : Fin 1)) (by
    rw [Shape.rowMajor_val_one, Shape.rowMajor_val_two]; show k.val * 1 + 0 = k.val; omega)).trans ?_
  refine extractStridedSlice_apply _ wa _ _ _ fun a => ?_
  match a with
  | ⟨0, _⟩ => show k.val = 0 + k.val; omega
  | ⟨1, _⟩ => rfl

/-- The second weight row at lane k is weight 64 + k. -/
theorem wj_apply (wa : FVec Ideal S128x1 .f32) (k : Fin 64) :
    Cert.KernelIdeal.KT.wjOf wa (ix2 0 k) = wa (ix2 (Fin.natAdd 64 k) 0) := by
  unfold Cert.KernelIdeal.KT.wjOf
  refine (shapeCast_apply _ _ (ix2 0 k) (ix1 k) (by
    rw [Shape.rowMajor_val_one, Shape.rowMajor_val_two]; show k.val = 0 * 64 + k.val; omega)).trans ?_
  refine (shapeCast_apply _ _ (ix1 k) (ix2 k (0 : Fin 1)) (by
    rw [Shape.rowMajor_val_one, Shape.rowMajor_val_two]; show k.val * 1 + 0 = k.val; omega)).trans ?_
  refine extractStridedSlice_apply _ wa _ _ _ fun a => ?_
  match a with
  | ⟨0, _⟩ => show 64 + k.val = 64 + k.val; rfl
  | ⟨1, _⟩ => rfl

/-- The bias as a 1×1 array reads the bias. -/
theorem b11_apply (b : FVec Ideal S1 .f32) : Cert.KernelIdeal.KT.b11Of b (ix2 0 0) = b (ix1 0) := by
  unfold Cert.KernelIdeal.KT.b11Of
  exact shapeCast_apply _ _ (ix2 0 0) (ix1 0) (by
    rw [Shape.rowMajor_val_one, Shape.rowMajor_val_two]; rfl)

/-- The bias broadcast down the column reads the bias at every edge. -/
theorem bcol_apply (b : FVec Ideal S1 .f32) (e : Fin 1250000) :
    broadcastInDim S1250000x1 ![0, 1] Cert.ReferenceIdeal.Facts₀.bcast_S1x1_S1250000x1_0_1
      (broadcastInDim S1x1 ![1] Cert.ReferenceIdeal.Facts₀.bcast_S1_S1x1_1 b) (ix2 e 0) = b (ix1 0) := by
  refine (broadcastInDim_apply _ _ _ (ix2 e 0) (ix2 0 0) fun a => ?_).trans ?_
  · match a with
    | ⟨0, _⟩ => rfl
    | ⟨1, _⟩ => rfl
  · refine broadcastInDim_apply _ _ b (ix2 0 0) (ix1 0) fun a => ?_
    match a with
    | ⟨0, _⟩ => rfl

/-- The reference's score at edge e is the kernel's two 64-term sums plus the bias. -/
theorem scoreOf_apply (hi hj : FVec Ideal S1250000x64 .f32) (wa : FVec Ideal S128x1 .f32) (b : FVec Ideal S1 .f32) (e : Fin 1250000) :
    Cert.ReferenceIdeal.RT.scoreOf hi hj wa b (ix2 e 0)
      = Cert.Spec.scoreAt hi hj (Cert.KernelIdeal.KT.wiOf wa) (Cert.KernelIdeal.KT.wjOf wa) (Cert.KernelIdeal.KT.b11Of b) e := by
  unfold Cert.ReferenceIdeal.RT.scoreOf Cert.Spec.scoreAt
  rw [addf_apply, bcol_apply, b11_apply, dot_eq_plain, StackMember.dotGeneral_plain_apply]
  congr 1
  refine (Fin.sum_univ_add (a := 64) (b := 64) _).trans ?_
  congr 1
  · exact Finset.sum_congr rfl fun k _ => by rw [cat_left, wi_apply]
  · exact Finset.sum_congr rfl fun k _ => by rw [cat_right, wj_apply]

/-- The reference's numerator column is the kernel's, the attention weights cut into their two halves. -/
theorem score_eq (hi hj : FVec Ideal S1250000x64 .f32) (wa : FVec Ideal S128x1 .f32) (b : FVec Ideal S1 .f32) :
    Cert.ReferenceIdeal.RT.numOfScore (Cert.ReferenceIdeal.RT.scoreOf hi hj wa b)
      = Cert.Spec.score hi hj (Cert.KernelIdeal.KT.wiOf wa) (Cert.KernelIdeal.KT.wjOf wa) (Cert.KernelIdeal.KT.b11Of b) := by
  funext i
  obtain ⟨e, q, rfl⟩ : ∃ (e : Fin 1250000) (q : Fin 1), i = ix2 e q := ⟨i 0, i 1, eq_ix2 i⟩
  obtain rfl : q = 0 := Subsingleton.elim _ _
  show Cert.Spec.leakyExp (Cert.ReferenceIdeal.RT.scoreOf hi hj wa b (ix2 e 0)) = Cert.Spec.leakyExp _
  rw [scoreOf_apply]

end Cert.Bridge

end
-- ==== Proof.BridgePointwise.lean ====
/-
  The reference's two pointwise stages read at an index: the product with the broadcast coefficient column,
  and the two additions with the bias broadcast along rows.
-/
import proofs.«419194_j39496519254635_1_alg».proof.KernelIdeal
import proofs.«419194_j39496519254635_1_alg».proof.ReferenceIdeal
import proofs.«419194_j39496519254635_1_alg».proof.Proof.KTerm
import proofs.«419194_j39496519254635_1_alg».proof.Proof.RTerm
import proofs.«419194_j39496519254635_1_alg».proof.Proof.SpecPointwise
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx
open Cert.KernelIdeal (S100000x128 S2x1250000 S128x64 S128x1 S1 S64 S1250000 S100000x64 S1250000x64 S1250000x1 S100000x1 S1x64 S1x1)

variable [Cert.KernelIdeal.Facts] [Cert.ReferenceIdeal.Facts]

/-- The reference's scaled source rows are the kernel's. -/
theorem weighted_eq (hj : FVec Ideal S1250000x64 .f32) (alpha : FVec Ideal S1250000x1 .f32) :
    Cert.ReferenceIdeal.RT.weightedOf hj alpha = Cert.Spec.weighted hj alpha := by
  funext i
  obtain ⟨p, q, rfl⟩ : ∃ (p : Fin 1250000) (q : Fin 64), i = ix2 p q := ⟨i 0, i 1, eq_ix2 i⟩
  unfold Cert.ReferenceIdeal.RT.weightedOf Cert.Spec.weighted
  rw [mulf_apply]
  congr 1
  refine broadcastInDim_apply _ _ _ _ (ix2 p 0) fun a => ?_
  match a with
  | ⟨0, _⟩ => exact (if_neg (by decide : ¬ ((1250000 : Nat) = 1))).symm
  | ⟨1, _⟩ => exact (if_pos rfl).symm

/-- The reference's final sum is the kernel's, the bias laid out as a row. -/
theorem combine_eq (agg res : FVec Ideal S100000x64 .f32) (bias : FVec Ideal S64 .f32) :
    Cert.ReferenceIdeal.RT.combineOf agg res bias = Cert.Spec.combine agg res (Cert.KernelIdeal.KT.biasRow bias) := by
  funext i
  obtain ⟨p, q, rfl⟩ : ∃ (p : Fin 100000) (q : Fin 64), i = ix2 p q := ⟨i 0, i 1, eq_ix2 i⟩
  unfold Cert.ReferenceIdeal.RT.combineOf Cert.Spec.combine Cert.KernelIdeal.KT.biasRow
  rw [addf_apply, addf_apply]
  congr 1
  -- the bias broadcast along rows, read at (p, q), is the bias row at (0, q), which is the bias at q
  refine (broadcastInDim_apply _ _ _ _ (ix2 0 q) fun a => ?_).trans ?_
  · match a with
    | ⟨0, _⟩ => exact (if_pos rfl).symm
    | ⟨1, _⟩ => exact (if_neg (by decide : ¬ ((64 : Nat) = 1))).symm
  refine (broadcastInDim_apply _ _ _ _ (ix1 q) fun a => ?_).trans ?_
  · match a with
    | ⟨0, _⟩ => exact (if_neg (by decide : ¬ ((64 : Nat) = 1))).symm
  -- the bias reshaped to a row reads the bias at q too
  symm
  refine shapeCast_apply _ _ _ (ix1 q) ?_
  rw [Shape.rowMajor_val_one, Shape.rowMajor_val_two]
  show q.val = 0 * 64 + q.val
  omega

end Cert.Bridge

end
-- ==== Proof.Bridge.lean ====
/-
  The two programs' results are one function of the arguments when both index rows are in range:
  stage by stage, the kernel's projection is the reference's matrix product, its guarded gathers are the
  reference's plain gathers, its numerator column the reference's, the per-destination sums and the
  coefficient the same host operations on equal operands, the weighted rows and the final sum the same
  pointwise functions.
-/
import proofs.«419194_j39496519254635_1_alg».proof.Proof.BridgeTake
import proofs.«419194_j39496519254635_1_alg».proof.Proof.BridgeProj
import proofs.«419194_j39496519254635_1_alg».proof.Proof.BridgeScore
import proofs.«419194_j39496519254635_1_alg».proof.Proof.BridgePointwise

noncomputable section

namespace Cert.Bridge

open Idealize.ShloMosaic
open Cert.KernelIdeal (S100000x128 S2x1250000 S128x64 S128x1 S1 S64 S1250000 S100000x64 S1250000x64 S1250000x1 S100000x1)

variable [Cert.KernelIdeal.Facts] [Cert.ReferenceIdeal.Facts]

/-- The source row of the edge table is the same slice in both programs. -/
theorem srcOf_eq (ei : IVec S2x1250000 32) : Cert.KernelIdeal.KT.srcOf ei = Cert.ReferenceIdeal.RT.srcOf ei := rfl

/-- The destination row of the edge table is the same slice in both programs. -/
theorem dstOf_eq (ei : IVec S2x1250000 32) : Cert.KernelIdeal.KT.dstOf ei = Cert.ReferenceIdeal.RT.dstOf ei := rfl

/-- The per-destination sum of a column is the same scatter-add in both programs. -/
theorem denomOf_eq (num : FVec Ideal S1250000x1 .f32) (d : IVec S1250000 32) :
    Cert.KernelIdeal.KT.denomOf num d = Cert.ReferenceIdeal.RT.denomOf num d := rfl

/-- The coefficient is the same quotient in both programs. -/
theorem alphaOf_eq (num deng : FVec Ideal S1250000x1 .f32) :
    Cert.KernelIdeal.KT.alphaOf num deng = Cert.ReferenceIdeal.RT.alphaOf num deng := rfl

/-- The per-destination sum of 64-wide rows is the same scatter-add in both programs. -/
theorem aggOf_eq (wgt : FVec Ideal S1250000x64 .f32) (d : IVec S1250000 32) :
    Cert.KernelIdeal.KT.aggOf wgt d = Cert.ReferenceIdeal.RT.aggOf wgt d := rfl

variable (x : FVec Ideal S100000x128 .f32) (ei : IVec S2x1250000 32) (wc : FVec Ideal S128x64 .f32) (wa : FVec Ideal S128x1 .f32)
  (b : FVec Ideal S1 .f32) (wr : FVec Ideal S128x64 .f32) (bias : FVec Ideal S64 .f32)

/-- The gathered destination rows agree. -/
theorem hiOf_eq (hd : InRange (Cert.KernelIdeal.KT.dstOf ei)) :
    Cert.KernelIdeal.KT.hiOf x ei wc = Cert.ReferenceIdeal.RT.hiOf x ei wc := by
  unfold Cert.KernelIdeal.KT.hiOf Cert.ReferenceIdeal.RT.hiOf
  rw [take64_eq _ _ hd, proj_eq, dstOf_eq]

/-- The gathered source rows agree. -/
theorem hjOf_eq (hs : InRange (Cert.KernelIdeal.KT.srcOf ei)) :
    Cert.KernelIdeal.KT.hjOf x ei wc = Cert.ReferenceIdeal.RT.hjOf x ei wc := by
  unfold Cert.KernelIdeal.KT.hjOf Cert.ReferenceIdeal.RT.hjOf
  rw [take64_eq _ _ hs, proj_eq, srcOf_eq]

/-- The numerator columns agree. -/
theorem numOf_eq (hs : InRange (Cert.KernelIdeal.KT.srcOf ei)) (hd : InRange (Cert.KernelIdeal.KT.dstOf ei)) :
    Cert.KernelIdeal.KT.numOf x ei wc wa b = Cert.ReferenceIdeal.RT.numOf x ei wc wa b := by
  unfold Cert.KernelIdeal.KT.numOf Cert.ReferenceIdeal.RT.numOf
  rw [score_eq, hiOf_eq x ei wc hd, hjOf_eq x ei wc hs]

/-- The coefficient columns agree. -/
theorem alphaOut_eq (hs : InRange (Cert.KernelIdeal.KT.srcOf ei)) (hd : InRange (Cert.KernelIdeal.KT.dstOf ei)) :
    Cert.KernelIdeal.KT.alphaOut x ei wc wa b = Cert.ReferenceIdeal.RT.alphaOut x ei wc wa b := by
  unfold Cert.KernelIdeal.KT.alphaOut Cert.ReferenceIdeal.RT.alphaOut
  rw [take1_eq _ _ hd, numOf_eq x ei wc wa b hs hd, denomOf_eq, alphaOf_eq, dstOf_eq]

/-- In range, the kernel program's result is the reference's. -/
theorem kernelOut_eq_refOut (hs : InRange (Cert.KernelIdeal.KT.srcOf ei)) (hd : InRange (Cert.KernelIdeal.KT.dstOf ei)) :
    Cert.KernelIdeal.KT.kernelOut x ei wc wa b wr bias = Cert.ReferenceIdeal.RT.refOut x ei wc wa b wr bias := by
  unfold Cert.KernelIdeal.KT.kernelOut Cert.ReferenceIdeal.RT.refOut
  rw [combine_eq, weighted_eq, proj_eq, hjOf_eq x ei wc hs, alphaOut_eq x ei wc wa b hs hd, aggOf_eq, dstOf_eq]

end Cert.Bridge

end
-- ==== Proof.PreIdx.lean ====
/-
  What the precondition says of the edge table: its last two conjuncts are "every entry ≥ 0" and
  "every entry < 100000", so both index rows are in range.
-/
import proofs.«419194_j39496519254635_1_alg».proof.Pre_finite_inputs
import proofs.«419194_j39496519254635_1_alg».proof.Proof.BridgeTake
import Idealize.ShloMosaic.Lib.ReduceAll
import Idealize.ShloMosaic.Lib.StableHlo.Predicate

noncomputable section

namespace Cert.Bridge

open Idealize.ShloMosaic Idealize.ShloMosaic.ValueIdx
open Cert.KernelIdeal (S100000x128 S2x1250000 S128x64 S128x1 S1 S64 S1250000)

variable [Cert.KernelIdeal.Facts] [Cert.ReferenceIdeal.Facts] [Cert.Pre_finite_inputs.Facts]

/-- The scalar shape has one index. -/
instance : Subsingleton Cert.Pre_finite_inputs.S_.Idx := ⟨fun a b => funext fun d => d.elim0⟩

/-- A word that compares ≥ 0 signed is non-negative. -/
theorem nonneg_of_sge {w : BitVec 32} (h : IntOp.cmpi .sge w 0#32 = 1#1) : 0 ≤ w.toInt := by
  have hz : (0#32 : BitVec 32).toInt = 0 := by decide
  have h' : BitVec.ofBool ((0#32 : BitVec 32).sle w) = 1#1 := h
  rw [StableHlo.Predicate.ofBool_eq_one_iff] at h'
  simp only [BitVec.sle, hz, decide_eq_true_eq] at h'
  exact h'

/-- A word that compares < 100000 signed is below 100000. -/
theorem lt_of_slt {w : BitVec 32} (h : IntOp.cmpi .slt w 100000#32 = 1#1) : w.toInt < 100000 := by
  have hn : (100000#32 : BitVec 32).toInt = 100000 := by decide
  have h' : BitVec.ofBool (w.slt 100000#32) = 1#1 := h
  rw [StableHlo.Predicate.ofBool_eq_one_iff] at h'
  simp only [BitVec.slt, hn, decide_eq_true_eq] at h'
  exact h'

/-- Each entry of the source row is an entry of the edge table. -/
theorem srcOf_apply (ei : IVec S2x1250000 32) (e : S1250000.Idx) : ∃ j, Cert.KernelIdeal.KT.srcOf ei e = ei j := ⟨_, rfl⟩

/-- Each entry of the destination row is an entry of the edge table. -/
theorem dstOf_apply (ei : IVec S2x1250000 32) (e : S1250000.Idx) : ∃ j, Cert.KernelIdeal.KT.dstOf ei e = ei j := ⟨_, rfl⟩

/-- Under the precondition every entry of the edge table is in [0, 100000). -/
theorem entries_of_pre (x : FVec Ideal S100000x128 .f32) (ei : IVec S2x1250000 32) (wc : FVec Ideal S128x64 .f32) (wa : FVec Ideal S128x1 .f32)
    (b : FVec Ideal S1 .f32) (wr : FVec Ideal S128x64 .f32) (bias : FVec Ideal S64 .f32)
    (h : Cert.Pre_finite_inputs.fn (F := Ideal) x ei wc wa b wr bias = fun _ => 1#1) (j : S2x1250000.Idx) :
    0 ≤ (ei j).toInt ∧ (ei j).toInt < 100000 := by
  have h0 := congrFun h ix0
  unfold Cert.Pre_finite_inputs.fn Cert.Pre_finite_inputs.fn_part1 Cert.Pre_finite_inputs.fn_part2 at h0
  obtain ⟨h1, hlt⟩ := IntOp.andi_eq_one.1 h0
  obtain ⟨-, hge⟩ := IntOp.andi_eq_one.1 h1
  have hge' := Host.reduce_andi_all _ _ _ _ _ hge j
  have hlt' := Host.reduce_andi_all _ _ _ _ _ hlt j
  exact ⟨nonneg_of_sge hge', lt_of_slt hlt'⟩

/-- Under the precondition both rows of the edge table are in range. -/
theorem inRange_of_pre (x : FVec Ideal S100000x128 .f32) (ei : IVec S2x1250000 32) (wc : FVec Ideal S128x64 .f32) (wa : FVec Ideal S128x1 .f32)
    (b : FVec Ideal S1 .f32) (wr : FVec Ideal S128x64 .f32) (bias : FVec Ideal S64 .f32)
    (h : Cert.Pre_finite_inputs.fn (F := Ideal) x ei wc wa b wr bias = fun _ => 1#1) :
    InRange (Cert.KernelIdeal.KT.srcOf ei) ∧ InRange (Cert.KernelIdeal.KT.dstOf ei) := by
  refine ⟨fun e => ?_, fun e => ?_⟩
  · obtain ⟨j, hj⟩ := srcOf_apply ei e
    rw [hj]; exact entries_of_pre x ei wc wa b wr bias h j
  · obtain ⟨j, hj⟩ := dstOf_apply ei e
    rw [hj]; exact entries_of_pre x ei wc wa b wr bias h j

end Cert.Bridge

end
-- ==== Proof.lean ====
/-
  A graph attention layer over 100000 nodes and 1250000 edges. Both programs compute, on the extended reals,

      h = x · W_conv,   s_e = Σ_k h[dst_e, k] · W_att[k] + Σ_k h[src_e, k] · W_att[64 + k] + b_att,
      n_e = exp (leaky s_e),   D_v = Σ_{e : dst_e = v} n_e,   α_e = n_e / (D_{dst_e} + ε),
      out[v, :] = Σ_{e : dst_e = v} α_e · h[src_e, :] + (x · W_res)[v, :] + bias.

  The kernel program computes the two projections, the numerators, the weighted rows and the final sum in four
  row-tiled regions (blocks of 5000 rows that tile their arrays), with the gathers and the per-destination sums as
  host operations between them; the reference is one line of host operations. The two differ in three places, none of
  which changes the value: the kernel's products go through a narrower format (the identity on extended reals); the
  kernel's score is two 64-term sums where the reference has one 128-term sum over concatenated rows (a sum regrouped);
  and the kernel's gathers put the NaN word where a wrapped index falls outside the table, which under the
  precondition's index range (every entry of the edge table in [0, 100000)) happens nowhere.
  The kernel program's run is its generated frame's launch with the result buffer named; its value is read back
  boundary by boundary; the reference's run is its operations' fold.
-/
import proofs.«419194_j39496519254635_1_alg».proof.Defs
import proofs.«419194_j39496519254635_1_alg».proof.Proof.Gen.Kernel
import proofs.«419194_j39496519254635_1_alg».proof.Proof.Gen.Kernel.Frame
import proofs.«419194_j39496519254635_1_alg».proof.Proof.Gen.KernelIdeal
import proofs.«419194_j39496519254635_1_alg».proof.Proof.Gen.KernelIdeal.Frame
import proofs.«419194_j39496519254635_1_alg».proof.Proof.Gen.ReferenceIdeal
import proofs.«419194_j39496519254635_1_alg».proof.Proof.Gen.Pre_finite_inputs
import proofs.«419194_j39496519254635_1_alg».proof.Proof.KernelRun
import proofs.«419194_j39496519254635_1_alg».proof.Proof.KernelValue
import proofs.«419194_j39496519254635_1_alg».proof.Proof.RefRun
import proofs.«419194_j39496519254635_1_alg».proof.Proof.Bridge
import proofs.«419194_j39496519254635_1_alg».proof.Proof.PreIdx
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel program's
    result is its function of the arguments, the reference's its own, and in range the two functions are one. -/
theorem algebraic : Cert.algebraic_KernelIdeal_ReferenceIdeal := by
  intro m ρ m' ρ' hpre hagree
  refine ⟨fun c => Cert.KernelIdeal.KT.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KV.W12_out m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    rw [h0, h1, h2, h3, h4, h5, h6]
    obtain ⟨hs, hd⟩ := Cert.Bridge.inRange_of_pre _ _ _ _ _ _ _ (hpre c)
    exact (Cert.Bridge.kernelOut_eq_refOut _ _ _ _ _ _ _ hs hd).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
